-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x1024x1024 : Shape := ⟨4, ![16, 3, 1024, 1024]⟩
abbrev S28864 : Shape := ⟨1, ![28864]⟩
abbrev S_ : Shape := ⟨0, ![]⟩

class Facts : Prop where
  bcast_S_S16x3x1024x1024 : S_.BroadcastsInDim S16x3x1024x1024 (![] : Fin 0 → Fin S16x3x1024x1024.rank)
  reducesTo_S16x3x1024x1024_S_d0_1_2_3 : S16x3x1024x1024.ReducesTo [0, 1, 2, 3] S_
  h_S_ : 0 < S_.numel
  bcast_S_S28864 : S_.BroadcastsInDim S28864 (![] : Fin 0 → Fin S28864.rank)
  reducesTo_S28864_S_d0 : S28864.ReducesTo [0] S_

variable [Facts]

def fn {F : FTy → Type} [FloatOps F] (main_arg0 : FVec F S16x3x1024x1024 .f32) (main_arg1 : FVec F S28864 .f32) : IVec S_ 1 :=
  let main_v0 : FVec F S16x3x1024x1024 .f32 := Host.absf main_arg0
  let main_cst : FVec F S_ .f32 := constant S_ .f32 0x7F800000#32
  let main_v1 : FVec F S16x3x1024x1024 .f32 := broadcastInDim S16x3x1024x1024 ![] bcast_S_S16x3x1024x1024 main_cst
  let main_v2 : IVec S16x3x1024x1024 1 := cmpf .olt main_v0 main_v1
  let main_c : IVec S_ 1 := constantI S_ 1 1#1
  let main_v3 : IVec S_ 1 := (fun x v => Host.reduce IntOp.andi x v reducesTo_S16x3x1024x1024_S_d0_1_2_3 h_S_) main_v2 main_c
  let main_v4 : FVec F S28864 .f32 := Host.absf main_arg1
  let main_cst_0 : FVec F S_ .f32 := constant S_ .f32 0x7F800000#32
  let main_v5 : FVec F S28864 .f32 := broadcastInDim S28864 ![] bcast_S_S28864 main_cst_0
  let main_v6 : IVec S28864 1 := cmpf .olt main_v4 main_v5
  let main_c_1 : IVec S_ 1 := constantI S_ 1 1#1
  let main_v7 : IVec S_ 1 := (fun x v => Host.reduce IntOp.andi x v reducesTo_S28864_S_d0 h_S_) main_v6 main_c_1
  let main_v8 : IVec S_ 1 := andi main_v3 main_v7
  main_v8
-- ==== Kernel.lean ====
abbrev S16x3x1024x1024 : Shape := ⟨4, ![16, 3, 1024, 1024]⟩
abbrev S28864 : Shape := ⟨1, ![28864]⟩
abbrev S16x3x64 : Shape := ⟨3, ![16, 3, 64]⟩
abbrev S1x3x256x1024 : Shape := ⟨4, ![1, 3, 256, 1024]⟩
abbrev S1x3x64 : Shape := ⟨3, ![1, 3, 64]⟩
abbrev S3x64 : Shape := ⟨2, ![3, 64]⟩
abbrev S1x64 : Shape := ⟨2, ![1, 64]⟩
abbrev S1x1x8x1024 : Shape := ⟨4, ![1, 1, 8, 1024]⟩
abbrev S8x1024 : Shape := ⟨2, ![8, 1024]⟩
abbrev S8x1x1024 : Shape := ⟨3, ![8, 1, 1024]⟩
abbrev S8x64x1024 : Shape := ⟨3, ![8, 64, 1024]⟩
abbrev S8x64 : Shape := ⟨2, ![8, 64]⟩
abbrev S64 : Shape := ⟨1, ![64]⟩
abbrev S16x192 : Shape := ⟨2, ![16, 192]⟩
abbrev S24576 : Shape := ⟨1, ![24576]⟩
abbrev S192x128 : Shape := ⟨2, ![192, 128]⟩
abbrev S128 : Shape := ⟨1, ![128]⟩
abbrev S16x128 : Shape := ⟨2, ![16, 128]⟩
abbrev S1x128 : Shape := ⟨2, ![1, 128]⟩
abbrev S_ : Shape := ⟨0, ![]⟩
abbrev S4096 : Shape := ⟨1, ![4096]⟩
abbrev S128x32 : Shape := ⟨2, ![128, 32]⟩
abbrev S32 : Shape := ⟨1, ![32]⟩
abbrev S16x32 : Shape := ⟨2, ![16, 32]⟩
abbrev S1x32 : Shape := ⟨2, ![1, 32]⟩
abbrev S1 : Shape := ⟨1, ![1]⟩

abbrev nBuf : Space → Nat
  | .hbm => 33
  | .vmem => 5
  | .smem => 0
  | _ => 0

abbrev bufTy : (tb : Table) → Fin (tcTables nBuf tb) → BufTy
  | .hbm, ⟨0, _⟩ => ⟨S16x3x1024x1024, .f32⟩
  | .hbm, ⟨1, _⟩ => ⟨S28864, .f32⟩
  | .hbm, ⟨2, _⟩ => ⟨S16x3x64, .f32⟩
  | .hbm, ⟨3, _⟩ => ⟨S16x192, .f32⟩
  | .hbm, ⟨4, _⟩ => ⟨S24576, .f32⟩
  | .hbm, ⟨5, _⟩ => ⟨S192x128, .f32⟩
  | .hbm, ⟨6, _⟩ => ⟨S128, .f32⟩
  | .hbm, ⟨7, _⟩ => ⟨S16x128, .f32⟩
  | .hbm, ⟨8, _⟩ => ⟨S1x128, .f32⟩
  | .hbm, ⟨9, _⟩ => ⟨S16x128, .f32⟩
  | .hbm, ⟨10, _⟩ => ⟨S16x128, .f32⟩
  | .hbm, ⟨11, _⟩ => ⟨S_, .f32⟩
  | .hbm, ⟨12, _⟩ => ⟨S16x128, .f32⟩
  | .hbm, ⟨13, _⟩ => ⟨S16x128, .f32⟩
  | .hbm, ⟨14, _⟩ => ⟨S4096, .f32⟩
  | .hbm, ⟨15, _⟩ => ⟨S128x32, .f32⟩
  | .hbm, ⟨16, _⟩ => ⟨S32, .f32⟩
  | .hbm, ⟨17, _⟩ => ⟨S16x32, .f32⟩
  | .hbm, ⟨18, _⟩ => ⟨S1x32, .f32⟩
  | .hbm, ⟨19, _⟩ => ⟨S16x32, .f32⟩
  | .hbm, ⟨20, _⟩ => ⟨S16x32, .f32⟩
  | .hbm, ⟨21, _⟩ => ⟨S1, .f32⟩
  | .hbm, ⟨22, _⟩ => ⟨S_, .f32⟩
  | .hbm, ⟨23, _⟩ => ⟨S16x32, .f32⟩
  | .hbm, ⟨24, _⟩ => ⟨S16x32, .f32⟩
  | .hbm, ⟨25, _⟩ => ⟨S16x32, .f32⟩
  | .hbm, ⟨26, _⟩ => ⟨S16x32, .f32⟩
  | .hbm, ⟨27, _⟩ => ⟨S_, .f32⟩
  | .hbm, ⟨28, _⟩ => ⟨S16x32, .f32⟩
  | .hbm, ⟨29, _⟩ => ⟨S16x32, .f32⟩
  | .hbm, ⟨30, _⟩ => ⟨S_, .f32⟩
  | .hbm, ⟨31, _⟩ => ⟨S16x32, .f32⟩
  | .hbm, ⟨32, _⟩ => ⟨S16x32, .f32⟩
  | .local _ .vmem, ⟨0, _⟩ => ⟨S1x3x256x1024, .f32⟩
  | .local _ .vmem, ⟨1, _⟩ => ⟨S1x3x256x1024, .f32⟩
  | .local _ .vmem, ⟨2, _⟩ => ⟨S1x3x64, .f32⟩
  | .local _ .vmem, ⟨3, _⟩ => ⟨S1x3x64, .f32⟩
  | .local _ .vmem, ⟨4, _⟩ => ⟨S3x64, .f32⟩
  | _, _ => ⟨S16x3x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_call0_cst : Ref sig .tc := ⟨.hbm, 11, rfl⟩
abbrev main_call0_v0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst : Ref sig .tc := ⟨.hbm, 27, rfl⟩
abbrev main_v23 : Ref sig .tc := ⟨.hbm, 28, rfl⟩
abbrev main_v24 : Ref sig .tc := ⟨.hbm, 29, rfl⟩
abbrev main_cst_0 : Ref sig .tc := ⟨.hbm, 30, rfl⟩
abbrev main_v25 : Ref sig .tc := ⟨.hbm, 31, rfl⟩
abbrev main_v26 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 4], ![false, false]⟩

@[reducible] def k0_t1_loop : Scf.Loop 32 :=
  let c0_i32_1 : BitVec 32 := 0#32
  let c32_i32 : BitVec 32 := 32#32
  let v4 : BitVec 32 := Scalar.addi c0_i32_1 c32_i32
  let c1_i32 : BitVec 32 := 1#32
  ⟨c0_i32_1, v4, c1_i32⟩
def k0_mult1 (k0_t1 : Fin k0_t1_loop.trips) : BitVec 32 :=
  let c0_i32_1 : BitVec 32 := 0#32
  let c1_i32 : BitVec 32 := 1#32
  let arg5 : BitVec 32 := Scf.iv c0_i32_1 c1_i32 k0_t1
  let c8_i32 : BitVec 32 := 8#32
  let v30 : BitVec 32 := Scalar.muli arg5 c8_i32
  v30
def k0_off1 (k0_t1 : Fin k0_t1_loop.trips) : Fin 4 → Nat :=
  let c0_23 : Index := 0#32
  let c0_24 : Index := 0#32
  let c0_i32_1 : BitVec 32 := 0#32
  let c1_i32 : BitVec 32 := 1#32
  let arg5 : BitVec 32 := Scf.iv c0_i32_1 c1_i32 k0_t1
  let c8_i32 : BitVec 32 := 8#32
  let v30 : BitVec 32 := Scalar.muli arg5 c8_i32
  let v31 : BitVec 32 := v30
  let v32 : Index := Scalar.indexCast v31
  let c0_25 : Index := 0#32
  ![0, 0, v32.toNat, 0]
@[reducible] def k0_t2_loop : Scf.Loop 32 :=
  let c0_i32_7 : BitVec 32 := 0#32
  let c32_i32_8 : BitVec 32 := 32#32
  let v12 : BitVec 32 := Scalar.addi c0_i32_7 c32_i32_8
  let c1_i32_9 : BitVec 32 := 1#32
  ⟨c0_i32_7, v12, c1_i32_9⟩
def k0_mult2 (k0_t2 : Fin k0_t2_loop.trips) : BitVec 32 :=
  let c0_i32_7 : BitVec 32 := 0#32
  let c1_i32_9 : BitVec 32 := 1#32
  let arg5 : BitVec 32 := Scf.iv c0_i32_7 c1_i32_9 k0_t2
  let c8_i32 : BitVec 32 := 8#32
  let v30 : BitVec 32 := Scalar.muli arg5 c8_i32
  v30
def k0_off2 (k0_t2 : Fin k0_t2_loop.trips) : Fin 4 → Nat :=
  let c0_23 : Index := 0#32
  let c1_24 : Index := 1#32
  let c0_i32_7 : BitVec 32 := 0#32
  let c1_i32_9 : BitVec 32 := 1#32
  let arg5 : BitVec 32 := Scf.iv c0_i32_7 c1_i32_9 k0_t2
  let c8_i32 : BitVec 32 := 8#32
  let v30 : BitVec 32 := Scalar.muli arg5 c8_i32
  let v31 : BitVec 32 := v30
  let v32 : Index := Scalar.indexCast v31
  let c0_25 : Index := 0#32
  ![0, 1, v32.toNat, 0]
@[reducible] def k0_t3_loop : Scf.Loop 32 :=
  let c0_i32_15 : BitVec 32 := 0#32
  let c32_i32_16 : BitVec 32 := 32#32
  let v20 : BitVec 32 := Scalar.addi c0_i32_15 c32_i32_16
  let c1_i32_17 : BitVec 32 := 1#32
  ⟨c0_i32_15, v20, c1_i32_17⟩
def k0_mult3 (k0_t3 : Fin k0_t3_loop.trips) : BitVec 32 :=
  let c0_i32_15 : BitVec 32 := 0#32
  let c1_i32_17 : BitVec 32 := 1#32
  let arg5 : BitVec 32 := Scf.iv c0_i32_15 c1_i32_17 k0_t3
  let c8_i32 : BitVec 32 := 8#32
  let v30 : BitVec 32 := Scalar.muli arg5 c8_i32
  v30
def k0_off3 (k0_t3 : Fin k0_t3_loop.trips) : Fin 4 → Nat :=
  let c0_23 : Index := 0#32
  let c2_24 : Index := 2#32
  let c0_i32_15 : BitVec 32 := 0#32
  let c1_i32_17 : BitVec 32 := 1#32
  let arg5 : BitVec 32 := Scf.iv c0_i32_15 c1_i32_17 k0_t3
  let c8_i32 : BitVec 32 := 8#32
  let v30 : BitVec 32 := Scalar.muli arg5 c8_i32
  let v31 : BitVec 32 := v30
  let v32 : Index := Scalar.indexCast v31
  let c0_25 : Index := 0#32
  ![0, 2, v32.toNat, 0]
def k0_cond2 (i : grid0.Coords) : BitVec 1 :=
  let arg1 : BitVec 32 := BitVec.ofNat 32 (i 1).val
  let c3_i32 : BitVec 32 := 3#32
  let v27 : BitVec 1 := Scalar.cmpi .eq arg1 c3_i32
  let v28 : BitVec 32 := Scalar.extui v27
  let c0_i32_22 : BitVec 32 := 0#32
  let v29 : BitVec 1 := Scalar.cmpi .ne v28 c0_i32_22
  v29

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  inb_S3x64_S3x64_0_0 : ∀ a, (![0, 0] : Fin 2 → Nat) a + S3x64.size a ≤ S3x64.size a
  h_S3x64 : 0 < S3x64.numel
  shapeCasts_S3x64_S3x64 : S3x64.ShapeCasts S3x64
  h_S1x1x8x1024 : 0 < S1x1x8x1024.numel
  shapeCasts_S1x1x8x1024_S8x1024 : S1x1x8x1024.ShapeCasts S8x1024
  shapeCasts_S8x1024_S8x1x1024 : S8x1024.ShapeCasts S8x1x1024
  shapeCasts_S8x1x1024_S8x1x1024 : S8x1x1024.ShapeCasts S8x1x1024
  broadcasts_S8x1x1024_S8x64x1024 : S8x1x1024.Broadcasts S8x64x1024
  iota_S8x64x1024_d1_w32 : S8x64x1024.Iotas .tc 32 [1]
  natLt_1_32 : 1 < 32
  reduces_S8x64x1024_S8x64 : S8x64x1024.Reduces [2] S8x64
  reduces_S8x64_S64 : S8x64.Reduces [0] S64
  shapeCasts_S64_S1x64 : S64.ShapeCasts S1x64
  inb_S3x64_S1x64_0_0 : ∀ a, (![0, 0] : Fin 2 → Nat) a + S1x64.size a ≤ S3x64.size a
  h_S1x64 : 0 < S1x64.numel
  shapeCasts_S1x64_S1x64 : S1x64.ShapeCasts S1x64
  inb_S3x64_S1x64_1_0 : ∀ a, (![1, 0] : Fin 2 → Nat) a + S1x64.size a ≤ S3x64.size a
  inb_S3x64_S1x64_2_0 : ∀ a, (![2, 0] : Fin 2 → Nat) a + S1x64.size a ≤ S3x64.size a
  inb_S1x3x64_S1x3x64_0_0_0 : ∀ a, (![0, 0, 0] : Fin 3 → Nat) a + S1x3x64.size a ≤ S1x3x64.size a
  h_S1x3x64 : 0 < S1x3x64.numel
  shapeCasts_S1x3x64_S3x64 : S1x3x64.ShapeCasts S3x64
  shapeCasts_S3x64_S1x3x64 : S3x64.ShapeCasts S1x3x64
  shapeCasts_S16x3x64_S16x192 : S16x3x64.ShapeCasts S16x192
  slices_S28864_S24576_0 : S28864.Slices ![0] S24576
  shapeCasts_S24576_S192x128 : S24576.ShapeCasts S192x128
  slices_S28864_S128_24576 : S28864.Slices ![24576] S128
  bcast_S128_S1x128_1 : S128.BroadcastsInDim S1x128 (![1] : Fin 1 → Fin S1x128.rank)
  bcast_S1x128_S16x128_0_1 : S1x128.BroadcastsInDim S16x128 (![0, 1] : Fin 2 → Fin S16x128.rank)
  bcast_S_S16x128 : S_.BroadcastsInDim S16x128 (![] : Fin 0 → Fin S16x128.rank)
  slices_S28864_S4096_24704 : S28864.Slices ![24704] S4096
  shapeCasts_S4096_S128x32 : S4096.ShapeCasts S128x32
  slices_S28864_S32_28800 : S28864.Slices ![28800] S32
  bcast_S32_S1x32_1 : S32.BroadcastsInDim S1x32 (![1] : Fin 1 → Fin S1x32.rank)
  bcast_S1x32_S16x32_0_1 : S1x32.BroadcastsInDim S16x32 (![0, 1] : Fin 2 → Fin S16x32.rank)
  slices_S28864_S1_28832 : S28864.Slices ![28832] S1
  shapeCasts_S1_S_ : S1.ShapeCasts S_
  bcast_S_S16x32 : S_.BroadcastsInDim S16x32 (![] : Fin 0 → Fin S16x32.rank)
  dot_S16x192_S192x128_S16x128_1_0_0_1_n_n_wf : DotDims.WF S16x192 S192x128 S16x128 [1] [0] [0] [1] [] []
  dot_S16x128_S128x32_S16x32_1_0_0_1_n_n_wf : DotDims.WF S16x128 S128x32 S16x32 [1] [0] [0] [1] [] []
  hrank0 : 0 < grid0.rank
  k0_t1_ok : k0_t1_loop.OK
  k0_mult1_dvd : ∀ k0_t1 : Fin k0_t1_loop.trips, 8 ∣ (k0_mult1 k0_t1).toNat
  k0_off1_inb : ∀ k0_t1 : Fin k0_t1_loop.trips, ∀ a, (k0_off1 k0_t1) a + S1x1x8x1024.size a ≤ S1x3x256x1024.size a
  k0_t2_ok : k0_t2_loop.OK
  k0_mult2_dvd : ∀ k0_t2 : Fin k0_t2_loop.trips, 8 ∣ (k0_mult2 k0_t2).toNat
  k0_off2_inb : ∀ k0_t2 : Fin k0_t2_loop.trips, ∀ a, (k0_off2 k0_t2) a + S1x1x8x1024.size a ≤ S1x3x256x1024.size a
  k0_t3_ok : k0_t3_loop.OK
  k0_mult3_dvd : ∀ k0_t3 : Fin k0_t3_loop.trips, 8 ∣ (k0_mult3 k0_t3).toNat
  k0_off3_inb : ∀ k0_t3 : Fin k0_t3_loop.trips, ∀ a, (k0_off3 k0_t3) a + S1x1x8x1024.size a ≤ S1x3x256x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x256x1024.size a ≤ S16x3x1024x1024.size a
  hwx0_0 : ∀ i : grid0.Coords, EltTy.bits .f32 = 32 ∨ (Rect.block (s := S16x3x1024x1024) S1x3x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x64.size a ≤ S16x3x64.size a
  hwx0_1 : ∀ i : grid0.Coords, EltTy.bits .f32 = 32 ∨ (Rect.block (s := S16x3x64) S1x3x64.size (cc0_transform_1 i) (hinb0_1 i)).WholeWords (EltTy.packing .f32)

variable [Facts₀]

def dot_S16x192_S192x128_S16x128_1_0_0_1_n_n : DotDims S16x192 S192x128 S16x128 where
  lhsContracting := [1]
  rhsContracting := [0]
  lhsNonContracting := [0]
  rhsNonContracting := [1]
  lhsBatch := []
  rhsBatch := []
  wf := dot_S16x192_S192x128_S16x128_1_0_0_1_n_n_wf
def dot_S16x128_S128x32_S16x32_1_0_0_1_n_n : DotDims S16x128 S128x32 S16x32 where
  lhsContracting := [1]
  rhsContracting := [0]
  lhsNonContracting := [0]
  rhsNonContracting := [1]
  lhsBatch := []
  rhsBatch := []
  wf := dot_S16x128_S128x32_S16x32_1_0_0_1_n_n_wf

abbrev win0_0 : Pipeline.Window sig grid0 :=
  Pipeline.Window.ofSpec (Memref.whole main_arg0) S1x3x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S16x3x1024x1024 : Shape := ⟨4, ![16, 3, 1024, 1024]⟩
abbrev S28864 : Shape := ⟨1, ![28864]⟩
abbrev S48x1048576 : Shape := ⟨2, ![48, 1048576]⟩
abbrev S_ : Shape := ⟨0, ![]⟩
abbrev S48 : Shape := ⟨1, ![48]⟩
abbrev S48x1 : Shape := ⟨2, ![48, 1]⟩
abbrev S50331648 : Shape := ⟨1, ![50331648]⟩
abbrev S3072 : Shape := ⟨1, ![3072]⟩
abbrev S50331648x1 : Shape := ⟨2, ![50331648, 1]⟩
abbrev S16x192 : Shape := ⟨2, ![16, 192]⟩
abbrev S24576 : Shape := ⟨1, ![24576]⟩
abbrev S192x128 : Shape := ⟨2, ![192, 128]⟩
abbrev S128 : Shape := ⟨1, ![128]⟩
abbrev S16x128 : Shape := ⟨2, ![16, 128]⟩
abbrev S1x128 : Shape := ⟨2, ![1, 128]⟩
abbrev S4096 : Shape := ⟨1, ![4096]⟩
abbrev S128x32 : Shape := ⟨2, ![128, 32]⟩
abbrev S32 : Shape := ⟨1, ![32]⟩
abbrev S16x32 : Shape := ⟨2, ![16, 32]⟩
abbrev S1x32 : Shape := ⟨2, ![1, 32]⟩
abbrev S1 : Shape := ⟨1, ![1]⟩

abbrev nBuf : Space → Nat
  | .hbm => 66
  | .vmem => 0
  | .smem => 0
  | _ => 0

abbrev bufTy : (tb : Table) → Fin (tcTables nBuf tb) → BufTy
  | .hbm, ⟨0, _⟩ => ⟨S16x3x1024x1024, .f32⟩
  | .hbm, ⟨1, _⟩ => ⟨S28864, .f32⟩
  | .hbm, ⟨2, _⟩ => ⟨S48x1048576, .f32⟩
  | .hbm, ⟨3, _⟩ => ⟨S_, .f32⟩
  | .hbm, ⟨4, _⟩ => ⟨S48x1048576, .f32⟩
  | .hbm, ⟨5, _⟩ => ⟨S48x1048576, .f32⟩
  | .hbm, ⟨6, _⟩ => ⟨S48x1048576, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S48x1048576, .i32⟩
  | .hbm, ⟨11, _⟩ => ⟨S48x1048576, .i32⟩
  | .hbm, ⟨12, _⟩ => ⟨S_, .i32⟩
  | .hbm, ⟨13, _⟩ => ⟨S48x1048576, .i32⟩
  | .hbm, ⟨14, _⟩ => ⟨S48x1048576, .i32⟩
  | .hbm, ⟨15, _⟩ => ⟨S48, .i32⟩
  | .hbm, ⟨16, _⟩ => ⟨S48x1, .i32⟩
  | .hbm, ⟨17, _⟩ => ⟨S_, .i32⟩
  | .hbm, ⟨18, _⟩ => ⟨S48x1, .i32⟩
  | .hbm, ⟨19, _⟩ => ⟨S48x1, .i32⟩
  | .hbm, ⟨20, _⟩ => ⟨S48x1048576, .i32⟩
  | .hbm, ⟨21, _⟩ => ⟨S48x1048576, .i32⟩
  | .hbm, ⟨22, _⟩ => ⟨S50331648, .i32⟩
  | .hbm, ⟨23, _⟩ => ⟨S_, .f32⟩
  | .hbm, ⟨24, _⟩ => ⟨S3072, .f32⟩
  | .hbm, ⟨25, _⟩ => ⟨S_, .i32⟩
  | .hbm, ⟨26, _⟩ => ⟨S50331648, .i32⟩
  | .hbm, ⟨27, _⟩ => ⟨S50331648, .i1⟩
  | .hbm, ⟨28, _⟩ => ⟨S_, .i32⟩
  | .hbm, ⟨29, _⟩ => ⟨S50331648, .i32⟩
  | .hbm, ⟨30, _⟩ => ⟨S50331648, .i32⟩
  | .hbm, ⟨31, _⟩ => ⟨S50331648, .i32⟩
  | .hbm, ⟨32, _⟩ => ⟨S50331648x1, .i32⟩
  | .hbm, ⟨33, _⟩ => ⟨S_, .f32⟩
  | .hbm, ⟨34, _⟩ => ⟨S50331648, .f32⟩
  | .hbm, ⟨35, _⟩ => ⟨S3072, .f32⟩
  | .hbm, ⟨36, _⟩ => ⟨S16x192, .f32⟩
  | .hbm, ⟨37, _⟩ => ⟨S24576, .f32⟩
  | .hbm, ⟨38, _⟩ => ⟨S192x128, .f32⟩
  | .hbm, ⟨39, _⟩ => ⟨S128, .f32⟩
  | .hbm, ⟨40, _⟩ => ⟨S16x128, .f32⟩
  | .hbm, ⟨41, _⟩ => ⟨S1x128, .f32⟩
  | .hbm, ⟨42, _⟩ => ⟨S16x128, .f32⟩
  | .hbm, ⟨43, _⟩ => ⟨S16x128, .f32⟩
  | .hbm, ⟨44, _⟩ => ⟨S_, .f32⟩
  | .hbm, ⟨45, _⟩ => ⟨S16x128, .f32⟩
  | .hbm, ⟨46, _⟩ => ⟨S16x128, .f32⟩
  | .hbm, ⟨47, _⟩ => ⟨S4096, .f32⟩
  | .hbm, ⟨48, _⟩ => ⟨S128x32, .f32⟩
  | .hbm, ⟨49, _⟩ => ⟨S32, .f32⟩
  | .hbm, ⟨50, _⟩ => ⟨S16x32, .f32⟩
  | .hbm, ⟨51, _⟩ => ⟨S1x32, .f32⟩
  | .hbm, ⟨52, _⟩ => ⟨S16x32, .f32⟩
  | .hbm, ⟨53, _⟩ => ⟨S16x32, .f32⟩
  | .hbm, ⟨54, _⟩ => ⟨S1, .f32⟩
  | .hbm, ⟨55, _⟩ => ⟨S_, .f32⟩
  | .hbm, ⟨56, _⟩ => ⟨S16x32, .f32⟩
  | .hbm, ⟨57, _⟩ => ⟨S16x32, .f32⟩
  | .hbm, ⟨58, _⟩ => ⟨S16x32, .f32⟩
  | .hbm, ⟨59, _⟩ => ⟨S16x32, .f32⟩
  | .hbm, ⟨60, _⟩ => ⟨S_, .f32⟩
  | .hbm, ⟨61, _⟩ => ⟨S16x32, .f32⟩
  | .hbm, ⟨62, _⟩ => ⟨S16x32, .f32⟩
  | .hbm, ⟨63, _⟩ => ⟨S_, .f32⟩
  | .hbm, ⟨64, _⟩ => ⟨S16x32, .f32⟩
  | .hbm, ⟨65, _⟩ => ⟨S16x32, .f32⟩
  | _, _ => ⟨S16x3x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_c_3 : Ref sig .tc := ⟨.hbm, 25, rfl⟩
abbrev main_v13 : Ref sig .tc := ⟨.hbm, 26, rfl⟩
abbrev main_v14 : Ref sig .tc := ⟨.hbm, 27, rfl⟩
abbrev main_c_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_call1_cst : Ref sig .tc := ⟨.hbm, 44, rfl⟩
abbrev main_call1_v0 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_6 : Ref sig .tc := ⟨.hbm, 60, rfl⟩
abbrev main_v43 : Ref sig .tc := ⟨.hbm, 61, rfl⟩
abbrev main_v44 : Ref sig .tc := ⟨.hbm, 62, rfl⟩
abbrev main_cst_7 : Ref sig .tc := ⟨.hbm, 63, rfl⟩
abbrev main_v45 : Ref sig .tc := ⟨.hbm, 64, rfl⟩
abbrev main_v46 : Ref sig .tc := ⟨.hbm, 65, rfl⟩

abbrev nD : Nat := 1
abbrev τ : Topo := Topo.v7x

variable {F : FTy → Type} [FloatOps F]

class Facts₀ : Prop where
  shapeCasts_S16x3x1024x1024_S48x1048576 : S16x3x1024x1024.ShapeCasts S48x1048576
  bcast_S_S48x1048576 : S_.BroadcastsInDim S48x1048576 (![] : Fin 0 → Fin S48x1048576.rank)
  bcast_S48_S48x1_0 : S48.BroadcastsInDim S48x1 (![0] : Fin 1 → Fin S48x1.rank)
  bcast_S_S48x1 : S_.BroadcastsInDim S48x1 (![] : Fin 0 → Fin S48x1.rank)
  bcast_S48x1_S48x1048576_0_1 : S48x1.BroadcastsInDim S48x1048576 (![0, 1] : Fin 2 → Fin S48x1048576.rank)
  shapeCasts_S48x1048576_S50331648 : S48x1048576.ShapeCasts S50331648
  bcast_S_S3072 : S_.BroadcastsInDim S3072 (![] : Fin 0 → Fin S3072.rank)
  bcast_S_S50331648 : S_.BroadcastsInDim S50331648 (![] : Fin 0 → Fin S50331648.rank)
  bcast_S50331648_S50331648x1_0 : S50331648.BroadcastsInDim S50331648x1 (![0] : Fin 1 → Fin S50331648x1.rank)
  shapeCasts_S3072_S16x192 : S3072.ShapeCasts S16x192
  slices_S28864_S24576_0 : S28864.Slices ![0] S24576
  shapeCasts_S24576_S192x128 : S24576.ShapeCasts S192x128
  slices_S28864_S128_24576 : S28864.Slices ![24576] S128
  bcast_S128_S1x128_1 : S128.BroadcastsInDim S1x128 (![1] : Fin 1 → Fin S1x128.rank)
  bcast_S1x128_S16x128_0_1 : S1x128.BroadcastsInDim S16x128 (![0, 1] : Fin 2 → Fin S16x128.rank)
  bcast_S_S16x128 : S_.BroadcastsInDim S16x128 (![] : Fin 0 → Fin S16x128.rank)
  slices_S28864_S4096_24704 : S28864.Slices ![24704] S4096
  shapeCasts_S4096_S128x32 : S4096.ShapeCasts S128x32
  slices_S28864_S32_28800 : S28864.Slices ![28800] S32
  bcast_S32_S1x32_1 : S32.BroadcastsInDim S1x32 (![1] : Fin 1 → Fin S1x32.rank)
  bcast_S1x32_S16x32_0_1 : S1x32.BroadcastsInDim S16x32 (![0, 1] : Fin 2 → Fin S16x32.rank)
  slices_S28864_S1_28832 : S28864.Slices ![28832] S1
  shapeCasts_S1_S_ : S1.ShapeCasts S_
  bcast_S_S16x32 : S_.BroadcastsInDim S16x32 (![] : Fin 0 → Fin S16x32.rank)
  scatter_S3072_S50331648x1_S50331648_n_0_0_1_wf : ScatterDims.WF S3072 S50331648x1 S50331648 [] [0] [0] 1
  dot_S16x192_S192x128_S16x128_1_0_0_1_n_n_wf : DotDims.WF S16x192 S192x128 S16x128 [1] [0] [0] [1] [] []
  dot_S16x128_S128x32_S16x32_1_0_0_1_n_n_wf : DotDims.WF S16x128 S128x32 S16x32 [1] [0] [0] [1] [] []

variable [Facts₀]

def scatter_S3072_S50331648x1_S50331648_n_0_0_1 : ScatterDims S3072 S50331648x1 S50331648 where
  updateWindowDims := []
  insertedWindowDims := [0]
  scatterDimsToOperandDims := [0]
  indexVectorDim := 1
  wf := scatter_S3072_S50331648x1_S50331648_n_0_0_1_wf
def dot_S16x192_S192x128_S16x128_1_0_0_1_n_n : DotDims S16x192 S192x128 S16x128 where
  lhsContracting := [1]
  rhsContracting := [0]
  lhsNonContracting := [0]
  rhsNonContracting := [1]
  lhsBatch := []
  rhsBatch := []
  wf := dot_S16x192_S192x128_S16x128_1_0_0_1_n_n_wf
def dot_S16x128_S128x32_S16x32_1_0_0_1_n_n : DotDims S16x128 S128x32 S16x32 where
  lhsContracting := [1]
  rhsContracting := [0]
  lhsNonContracting := [0]
  rhsNonContracting := [1]
  lhsBatch := []
  rhsBatch := []
  wf := dot_S16x128_S128x32_S16x32_1_0_0_1_n_n_wf

class Facts : Prop extends Facts₀ where

variable [Facts]
-- ==== Proof.Spec.lean ====
/-
  The histogram both programs compute, as ONE function of the image over the extended reals.

  A pixel `x` falls in bin `bin x`: `x · 64` converted to a 32-bit integer toward zero and clamped into `[0, 63]`,
  from below first, then from above. Its contribution to bin `b` is `hot (bin x) b`: the one-bit equality of
  `bin x` with `b`, widened to 32 bits and converted to a float, so `1` when the pixel is in the bin and `0`
  when it is not. The count of bin `b` of channel `c` of image `n` is the sum of those contributions over the
  1024 × 1024 pixels. Every summand is `0` or `1`, so any order or grouping of the sum gives the same extended real.
  The feature vector of image `n` lists the 3 · 64 counts channel by channel: entry `k` is bin `k % 64` of
  channel `k / 64`.
-/
import Idealize.ShloMosaic.PureOps.Ideal
import Idealize.ShloMosaic.PureOps.Ideal.Laws
import Idealize.ShloMosaic.Lib.ValueIdx

noncomputable section

open scoped BigOperators

namespace Cert.Hist

open Idealize.ShloMosaic Idealize.ShloMosaic.ValueIdx

/-- The bin of a pixel: the pixel times 64 (the word `0x42800000`), converted to a signed 32-bit integer toward
    zero, then `max 0`, then `min 63`, both signed. -/
def bin (x : EReal) : BitVec 32 :=
  IntOp.minsi 63#32 (IntOp.maxsi 0#32 (Ideal.fptosi 32 (x * Ideal.ofBits .f32 0x42800000#32)))

/-- A pixel in bin `a` contributes to bin `b` the float of the widened one-bit test `a = b`. -/
def hot (a : BitVec 32) (b : Fin 64) : EReal :=
  ((((IntOp.cmpi .eq a (BitVec.ofNat 32 b.val)).setWidth 32).toInt : ℝ) : EReal)

/-- That contribution is `1` in the bin and `0` outside it. -/
theorem hot_eq (a : BitVec 32) (b : Fin 64) : hot a b = if a = BitVec.ofNat 32 b.val then 1 else 0 := by
  unfold hot IntOp.cmpi
  by_cases h : a = BitVec.ofNat 32 b.val
  · rw [if_pos h]; subst h; simp
  · rw [if_neg h]
    have : (a == BitVec.ofNat 32 b.val) = false := by simpa using h
    simp [this]

/-- A clamped word lies in `[0, 63]`: as a natural number it is below 64. -/
theorem clamp_lt (y : BitVec 32) : (IntOp.minsi 63#32 (IntOp.maxsi 0#32 y)).toNat < 64 := by
  unfold IntOp.minsi IntOp.maxsi
  by_cases h1 : y.slt 0#32 = true
  · rw [if_pos h1]; decide
  · rw [if_neg h1]
    by_cases h2 : (63#32 : BitVec 32).slt y = true
    · rw [if_pos h2]; decide
    · rw [if_neg h2]
      have e0 : (0#32 : BitVec 32).toInt = 0 := by decide
      have e63 : (63#32 : BitVec 32).toInt = 63 := by decide
      simp only [BitVec.slt, decide_eq_true_eq, not_lt, e0, e63] at h1 h2
      have hy := y.isLt
      rw [BitVec.toInt_eq_toNat_cond] at h1 h2
      split at h1 <;> omega

/-- So is a pixel's bin. -/
theorem bin_lt (x : EReal) : (bin x).toNat < 64 := clamp_lt _

/-- The count of bin `b` of channel `c` of image `n`: the pixels' contributions summed over rows and columns. -/
def count (x : (⟨4, ![16, 3, 1024, 1024]⟩ : Shape).Idx → EReal) (n : Fin 16) (c : Fin 3) (b : Fin 64) : EReal :=
  ∑ h : Fin 1024, ∑ w : Fin 1024, hot (bin (x (ix4 n c h w))) b

/-- The counts as the `[16, 3, 64]` array the kernel's region writes. -/
def hist (x : (⟨4, ![16, 3, 1024, 1024]⟩ : Shape).Idx → EReal) : (⟨3, ![16, 3, 64]⟩ : Shape).Idx → EReal :=
  fun i => count x (i 0) (i 1) (i 2)

/-- The counts as the `[16, 192]` feature matrix: column `k` is bin `k % 64` of channel `k / 64`. -/
def feat (x : (⟨4, ![16, 3, 1024, 1024]⟩ : Shape).Idx → EReal) : (⟨2, ![16, 192]⟩ : Shape).Idx → EReal :=
  fun i => count x (i 0) ⟨(i 1).val / 64, by have := idx2_lt1 i; omega⟩ ⟨(i 1).val % 64, Nat.mod_lt _ (by norm_num)⟩

end Cert.Hist

end
-- ==== Proof.Counting.lean ====
/-
  Counting lemmas for the histogram, over abstract summands: nothing here mentions a program.

  * The 1024 rows of an image channel are visited as 4 tiles of 32 chunks of 8 rows: row `256·t + 8·k + r`.
  * The 1024 · 1024 pixels of a channel, flattened row-major, are pixel `1024·h + w`.
  * The 48 · 1048576 scatter updates, flattened row-major, are update `1048576·p + q`.
  * An accumulating scatter into a rank-1 array through a `[U, 1]` index array, read at an index: the
    element plus the sum of the updates whose (signed) index word is that index.
  * Where update `(p, q)` carries the word `a p q + 64·p` with `a p q` in `[0, 63]`, the updates landing on
    element `i` are exactly those of row `p = i / 64` whose `a` is `i % 64`: the count is that row's one-hot sum.
-/
import Idealize.ShloMosaic.PureOps.Ideal
import Idealize.ShloMosaic.PureOps.Ideal.Laws
import Idealize.ShloMosaic.Lib.ValueIdx
import proofs.«176124_j50113678410581_1_alg».proof.Proof.Spec

noncomputable section

open scoped BigOperators

namespace Cert.Hist

open Idealize.ShloMosaic Idealize.ShloMosaic.ValueIdx

/-- Row `256·t + 8·k + r` of a channel: tile `t`, chunk `k` of the tile, row `r` of the chunk. -/
def rowOf (t : Fin 4) (k : Fin 32) (r : Fin 8) : Fin 1024 :=
  ⟨256 * t.val + 8 * k.val + r.val, by have := t.isLt; have := k.isLt; have := r.isLt; omega⟩

/-- Pixel `1024·h + w` of a flattened channel. -/
def pixOf (h w : Fin 1024) : Fin 1048576 :=
  ⟨1024 * h.val + w.val, by have := h.isLt; have := w.isLt; omega⟩

/-- Update `1048576·p + q` of the flattened update list. -/
def updOf (p : Fin 48) (q : Fin 1048576) : Fin 50331648 :=
  ⟨1048576 * p.val + q.val, by have := p.isLt; have := q.isLt; omega⟩

/-- A sum over `Fin (m * n)` is the double sum over the quotient and the remainder by `n`. -/
private theorem sum_fin_mul {M : Type*} [AddCommMonoid M] (m n : ℕ) (g : Fin (m * n) → M) :
    ∑ q : Fin (m * n), g q
      = ∑ i : Fin m, ∑ j : Fin n, g ⟨n * i.val + j.val, by
          have h := (finProdFinEquiv (i, j)).isLt
          have e : (finProdFinEquiv (i, j)).val = j.val + n * i.val := rfl
          omega⟩ := by
  rw [← Equiv.sum_comp finProdFinEquiv g, Fintype.sum_prod_type]
  refine Finset.sum_congr rfl fun i _ => Finset.sum_congr rfl fun j _ => ?_
  congr 1
  apply Fin.ext
  show j.val + n * i.val = n * i.val + j.val
  omega

/-- A sum over the 1024 rows, tile by tile, chunk by chunk, row by row. -/
theorem sum_rows {M : Type*} [AddCommMonoid M] (f : Fin 1024 → M) :
    ∑ h : Fin 1024, f h = ∑ t : Fin 4, ∑ k : Fin 32, ∑ r : Fin 8, f (rowOf t k r) := by
  refine (sum_fin_mul 4 256 f).trans ?_
  refine Finset.sum_congr rfl fun t _ => ?_
  refine (sum_fin_mul 32 8 (fun j : Fin (32 * 8) => f ⟨256 * t.val + j.val, by
    have := t.isLt; have := j.isLt; omega⟩)).trans ?_
  refine Finset.sum_congr rfl fun k _ => Finset.sum_congr rfl fun r _ => ?_
  congr 1
  apply Fin.ext
  show 256 * t.val + (8 * k.val + r.val) = 256 * t.val + 8 * k.val + r.val
  omega

/-- A sum over a flattened channel's pixels, row by row. -/
theorem sum_pix {M : Type*} [AddCommMonoid M] (g : Fin 1048576 → M) :
    ∑ q : Fin 1048576, g q = ∑ h : Fin 1024, ∑ w : Fin 1024, g (pixOf h w) := by
  exact sum_fin_mul 1024 1024 g

/-- A sum over the flattened updates, row by row. -/
theorem sum_upd {M : Type*} [AddCommMonoid M] (g : Fin 50331648 → M) :
    ∑ u : Fin 50331648, g u = ∑ p : Fin 48, ∑ q : Fin 1048576, g (updOf p q) := by
  exact sum_fin_mul 48 1048576 g

/-- The dimension numbers of a scatter of scalars into a rank-1 array of 3072 elements through a
    `[50331648, 1]` index array: no window axes, the operand's one axis inserted and indexed. -/
def scat : ScatterDims (⟨1, ![3072]⟩ : Shape) (⟨2, ![50331648, 1]⟩ : Shape) (⟨1, ![50331648]⟩ : Shape) where
  updateWindowDims := []
  insertedWindowDims := [0]
  scatterDimsToOperandDims := [0]
  indexVectorDim := 1

/-- A coordinate of a rank-1 index is its one coordinate. -/
private theorem ix1_val {n : ℕ} (u : Fin n) (d : Fin 1) : ((ix1 u) d).val = u.val := by
  match d with | ⟨0, _⟩ => rfl

/-- The index-array position update `u` reads its one start component at: row `u`, column `0`. -/
private theorem scat_siIdx (u : Fin 50331648) (c : Fin scat.scatterDimsToOperandDims.length) :
    scat.siIdx (ix1 u) c = ix2 u (0 : Fin 1) := by
  funext b
  match b with
  | ⟨0, h0⟩ =>
    apply Fin.ext
    unfold ScatterDims.siIdx
    rw [dif_neg (by show ¬ ((0 : ℕ) = 1); omega)]
    unfold ScatterDims.siCoord
    simp only [Fin.coe_cast]
    exact ix1_val u _
  | ⟨1, h1⟩ =>
    apply Fin.ext
    unfold ScatterDims.siIdx
    rw [dif_pos (by rfl)]
    show c.val = 0
    have := c.isLt
    change c.val < 1 at this
    omega

/-- The window of update `u` starts, on the operand's one axis, at its index word read signed. -/
private theorem scat_start (idx : IVec (⟨2, ![50331648, 1]⟩ : Shape) 32) (u : Fin 50331648) (a : Fin 1) :
    scat.start (ix1 u) idx a = (idx (ix2 u (0 : Fin 1))).toInt := by
  unfold ScatterDims.start
  have ha : a ∈ scat.scatterDimsToOperandDims := by
    have : a = 0 := Subsingleton.elim _ _
    subst this
    exact List.mem_singleton.2 rfl
  rw [dif_pos ha, scat_siIdx]

/-- The operand's one axis is inserted: the window coordinate on it is `0`. -/
private theorem scat_window (u : Fin 50331648) (a : Fin 1) : scat.window (ix1 u) a = 0 := by
  unfold ScatterDims.window
  have ha : a ∉ scat.sKept := by
    have : a = 0 := Subsingleton.elim _ _
    subst this
    decide
  rw [dif_neg ha]

/-- Update `u` lands on element `i` exactly when its index word, read signed, is `i`. -/
theorem scat_resultIdx (idx : IVec (⟨2, ![50331648, 1]⟩ : Shape) 32) (u : Fin 50331648) (i : Fin 3072) :
    scat.resultIdx? (ix1 u) idx = some (ix1 i) ↔ (idx (ix2 u (0 : Fin 1))).toInt = (i.val : ℤ) := by
  unfold ScatterDims.resultIdx?
  have key : ∀ a : Fin 1, scat.start (ix1 u) idx a + (scat.window (ix1 u) a : ℤ)
      = (idx (ix2 u (0 : Fin 1))).toInt := by
    intro a
    rw [scat_start, scat_window]
    simp
  have hi := i.isLt
  split
  · rename_i h
    constructor
    · intro he
      have h1 := congrFun (Option.some.inj he) (0 : Fin 1)
      have h2 := congrArg Fin.val h1
      have h3 := (h 0).1
      rw [key] at h3
      change (scat.start (ix1 u) idx 0 + (scat.window (ix1 u) 0 : ℤ)).toNat = i.val at h2
      rw [key] at h2
      omega
    · intro he
      congr 1
      funext a
      match a with
      | ⟨0, _⟩ =>
        apply Fin.ext
        show (scat.start (ix1 u) idx ⟨0, _⟩ + (scat.window (ix1 u) ⟨0, _⟩ : ℤ)).toNat = i.val
        rw [key, he]
        simp
  · rename_i h
    constructor
    · intro he
      cases he
    · intro he
      exfalso
      apply h
      intro a
      rw [key, he]
      have : a = 0 := Subsingleton.elim _ _
      subst this
      constructor
      · omega
      · show (i.val : ℤ) < ((3072 : ℕ) : ℤ)
        omega

/-- A rank-1 index set is its one coordinate's range. -/
private def idxEquiv1 (n : ℕ) : (⟨1, ![n]⟩ : Shape).Idx ≃ Fin n where
  toFun j := j 0
  invFun u := ix1 u
  left_inv j := (eq_ix1 j).symm
  right_inv _ := rfl

/-- The accumulating scatter read at element `i`: the element plus the updates whose index word is `i`. -/
theorem scatterAdd_apply (z : (⟨1, ![3072]⟩ : Shape).Idx → EReal) (idx : IVec (⟨2, ![50331648, 1]⟩ : Shape) 32)
    (upd : (⟨1, ![50331648]⟩ : Shape).Idx → EReal) (i : Fin 3072) :
    Ideal.hostScatterAdd scat z idx upd (ix1 i)
      = z (ix1 i) + ∑ u : Fin 50331648, if (idx (ix2 u (0 : Fin 1))).toInt = (i.val : ℤ) then upd (ix1 u) else 0 := by
  unfold Ideal.hostScatterAdd
  refine congrArg (fun t => z (ix1 i) + t) ?_
  refine (Finset.sum_filter _ _).trans ?_
  refine (Equiv.sum_comp (idxEquiv1 50331648).symm _).symm.trans ?_
  refine Finset.sum_congr rfl fun u _ => ?_
  have hu : (idxEquiv1 50331648).symm u = ix1 u := rfl
  rw [hu]
  by_cases h : (idx (ix2 u (0 : Fin 1))).toInt = (i.val : ℤ)
  · rw [if_pos h, if_pos ((scat_resultIdx idx u i).2 h)]
  · rw [if_neg h, if_neg (fun h' => h ((scat_resultIdx idx u i).1 h'))]

/-- The word `a + 64·p` for `a` in `[0, 63]` and `p < 48`, read signed, is the number `a + 64·p`. -/
theorem flat_toInt (a : BitVec 32) (ha : a.toNat < 64) (p : Fin 48) :
    (a + BitVec.ofNat 32 p.val * 64#32).toInt = ((a.toNat + 64 * p.val : ℕ) : ℤ) := by
  have hp := p.isLt
  have hn : (a + BitVec.ofNat 32 p.val * 64#32).toNat = a.toNat + 64 * p.val := by
    rw [BitVec.toNat_add, BitVec.toNat_mul, BitVec.toNat_ofNat, BitVec.toNat_ofNat]
    omega
  rw [BitVec.toInt_eq_toNat_cond, hn]
  split <;> omega

/-- The updates landing on element `i`, counted: row `i / 64`'s one-hot sum at bin `i % 64`. -/
theorem count_landing (a : Fin 48 → Fin 1048576 → BitVec 32) (ha : ∀ p q, (a p q).toNat < 64) (i : Fin 3072) :
    (∑ p : Fin 48, ∑ q : Fin 1048576,
        if (a p q + BitVec.ofNat 32 p.val * 64#32).toInt = (i.val : ℤ) then (1 : EReal) else 0)
      = ∑ q : Fin 1048576, hot (a ⟨i.val / 64, by have := i.isLt; omega⟩ q) ⟨i.val % 64, Nat.mod_lt _ (by norm_num)⟩ := by
  have hi := i.isLt
  rw [Finset.sum_eq_single (⟨i.val / 64, by omega⟩ : Fin 48)]
  · refine Finset.sum_congr rfl fun q _ => ?_
    have hq := ha ⟨i.val / 64, by omega⟩ q
    rw [flat_toInt _ hq, hot_eq]
    by_cases h : a ⟨i.val / 64, by omega⟩ q = BitVec.ofNat 32 (i.val % 64)
    · rw [if_pos h, if_pos]
      have h' := congrArg BitVec.toNat h
      rw [BitVec.toNat_ofNat] at h'
      show (((a ⟨i.val / 64, _⟩ q).toNat + 64 * (i.val / 64) : ℕ) : ℤ) = (i.val : ℤ)
      omega
    · rw [if_neg h, if_neg]
      intro h'
      apply h
      apply BitVec.eq_of_toNat_eq
      rw [BitVec.toNat_ofNat]
      have h'' : (a ⟨i.val / 64, by omega⟩ q).toNat + 64 * (i.val / 64) = i.val := by exact_mod_cast h'
      omega
  · intro p _ hp
    refine Finset.sum_eq_zero fun q _ => ?_
    have hq := ha p q
    rw [flat_toInt _ hq, if_neg]
    intro h'
    apply hp
    apply Fin.ext
    have h'' : (a p q).toNat + 64 * p.val = i.val := by exact_mod_cast h'
    show p.val = i.val / 64
    omega
  · intro h
    exact absurd (Finset.mem_univ _) h

end Cert.Hist

end
-- ==== Proof.RefFeat.lean ====
/-
  The reference's histogram is the specification's.

  The reference flattens the image to 48 rows (image-channel pairs) of 1048576 pixels, turns each pixel into its bin,
  adds `64 · row` so that every (row, bin) pair has its own slot among 3072, and scatters a `1` into that slot for
  every pixel. Update `1048576·p + q` therefore carries the index word `bin + 64·p`, which is never negative, so the
  wrap-around of negative indices leaves it alone; slot `i` receives exactly the pixels of row `i / 64` whose bin is
  `i % 64`; and row `p` is channel `p % 3` of image `p / 3`. Reshaped to `[16, 192]`, entry `(n, k)` is slot
  `192·n + k`: bin `k % 64` of channel `k / 64` of image `n`.
-/
import proofs.«176124_j50113678410581_1_alg».proof.Proof.Gen.ReferenceIdeal.Read
import proofs.«176124_j50113678410581_1_alg».proof.Proof.Spec
import proofs.«176124_j50113678410581_1_alg».proof.Proof.Counting
import Idealize.ShloMosaic.Lib.ValueIdx
import Idealize.ShloMosaic.Lib.Pipeline.Value
import Idealize.ShloMosaic.PureOps.Ideal.Laws

noncomputable section

open scoped BigOperators

namespace Cert.Hist

open Idealize.ShloMosaic Idealize.ShloMosaic.ValueIdx Cert.ReferenceIdeal Cert.ReferenceIdeal.Gen

/-- Pixel `q` of flattened row `p` is pixel `(q / 1024, q % 1024)` of channel `p % 3` of image `p / 3`. -/
def pixIdx (p : Fin 48) (q : Fin 1048576) : (⟨4, ![16, 3, 1024, 1024]⟩ : Shape).Idx :=
  ix4 (⟨p.val / 3, by have := p.isLt; omega⟩ : Fin 16) (⟨p.val % 3, Nat.mod_lt _ (by norm_num)⟩ : Fin 3)
    (⟨q.val / 1024, by have := q.isLt; omega⟩ : Fin 1024) (⟨q.val % 1024, Nat.mod_lt _ (by norm_num)⟩ : Fin 1024)

/-- Row `p`, column `q` of the flattened image is pixel `pixIdx p q`. -/
private theorem idx_v0 (p : Fin 48) (q : Fin 1048576) : Read.idx_main_v0 (ix2 p q) = pixIdx p q := by
  have hp := p.isLt
  have hq := q.isLt
  funext a
  match a with
  | ⟨0, _⟩ =>
    apply Fin.ext
    show (p.val * 1048576 + q.val) / 3145728 = p.val / 3
    omega
  | ⟨1, _⟩ =>
    apply Fin.ext
    show (p.val * 1048576 + q.val) / 1048576 % 3 = p.val % 3
    omega
  | ⟨2, _⟩ =>
    apply Fin.ext
    show (p.val * 1048576 + q.val) / 1024 % 1024 = q.val / 1024
    omega
  | ⟨3, _⟩ =>
    apply Fin.ext
    show (p.val * 1048576 + q.val) % 1024 = q.val % 1024
    omega

/-- Update `1048576·p + q` of the flattened list is row `p`, column `q`. -/
private theorem idx_v11 (p : Fin 48) (q : Fin 1048576) : Read.idx_main_v11 (ix1 (updOf p q)) = ix2 p q := by
  have hp := p.isLt
  have hq := q.isLt
  funext a
  match a with
  | ⟨0, _⟩ =>
    apply Fin.ext
    show (1048576 * p.val + q.val) / 1048576 = p.val
    omega
  | ⟨1, _⟩ =>
    apply Fin.ext
    show (1048576 * p.val + q.val) % 1048576 = q.val
    omega

/-- Row `u` of the `[U, 1]` index array is element `u` of the flat index list. -/
private theorem idx_v18 (u : Fin 50331648) : Read.idx_main_v18 (ix2 u (0 : Fin 1)) = ix1 u := by
  funext a
  match a with
  | ⟨0, _⟩ => rfl

/-- The clipped integer of pixel `(p, q)` times 64 is the pixel's bin. -/
private theorem v4_eq (x0 : (⟨S16x3x1024x1024, .f32⟩ : BufTy).Contents (Elt Ideal)) (p : Fin 48) (q : Fin 1048576) :
    Read.val_main_v4 (F := Ideal) x0 (ix2 p q) = bin (x0 (pixIdx p q)) := by
  rw [Read.val_main_v4_apply, Read.val_main_call0_v4_apply, Read.val_main_call0_v3_apply, Read.val_main_c_0_apply,
    Read.val_main_call0_v2_apply, Read.val_main_call0_v1_apply, Read.val_main_call0_v0_apply, Read.val_main_c_apply,
    Read.val_main_v3_apply, Read.val_main_v2_apply, Read.val_main_v0_apply, Read.val_main_v1_apply,
    Read.val_main_cst_apply, idx_v0]
  rfl

/-- The row offset of row `p`: the word `p · 64`. -/
private theorem v9_eq (p : Fin 48) (q : Fin 1048576) :
    Read.val_main_v9 (F := Ideal) (ix2 p q) = BitVec.ofNat 32 p.val * 64#32 := by
  rw [Read.val_main_v9_apply, Read.val_main_v8_apply, Read.val_main_v6_apply, Read.val_main_v5_apply,
    Read.val_main_v7_apply, Read.val_main_c_1_apply]
  rfl

/-- The flat index word of update `1048576·p + q`, before the wrap of negative indices. -/
private theorem v11_eq (x0 : (⟨S16x3x1024x1024, .f32⟩ : BufTy).Contents (Elt Ideal)) (p : Fin 48) (q : Fin 1048576) :
    Read.val_main_v11 (F := Ideal) x0 (ix1 (updOf p q)) = bin (x0 (pixIdx p q)) + BitVec.ofNat 32 p.val * 64#32 := by
  rw [Read.val_main_v11_apply, idx_v11, Read.val_main_v10_apply, v4_eq, v9_eq]
  rfl

/-- The word `a + 64·p` for `a` in `[0, 63]` is not negative: the signed test against `0` answers the bit `0`. -/
private theorem flat_not_slt (a : BitVec 32) (ha : a.toNat < 64) (p : Fin 48) :
    IntOp.cmpi .slt (a + BitVec.ofNat 32 p.val * 64#32) 0#32 = 0#1 := by
  have h : (a + BitVec.ofNat 32 p.val * 64#32).slt 0#32 = false := by
    have e0 : (0#32 : BitVec 32).toInt = 0 := by decide
    simp only [BitVec.slt, e0, flat_toInt a ha p, decide_eq_false_iff_not, not_lt]
    omega
  show BitVec.ofBool ((a + BitVec.ofNat 32 p.val * 64#32).slt 0#32) = 0#1
  rw [h]
  rfl

/-- The index word of update `1048576·p + q`: the pixel's bin plus `64·p`. -/
theorem ref_index (x0 : (⟨S16x3x1024x1024, .f32⟩ : BufTy).Contents (Elt Ideal)) (p : Fin 48) (q : Fin 1048576) :
    Cert.ReferenceIdeal.Read.val_main_v18 (F := Ideal) x0 (ix2 (updOf p q) (0 : Fin 1))
      = bin (x0 (pixIdx p q)) + BitVec.ofNat 32 p.val * 64#32 := by
  rw [Read.val_main_v18_apply, idx_v18, Read.val_main_v17_apply, Read.val_main_v14_apply, Read.val_main_v13_apply,
    Read.val_main_c_3_apply, v11_eq, flat_not_slt _ (bin_lt _) p, select_zero]

/-- The printed scatter's dimension numbers are the ones the counting lemmas are stated for. -/
theorem scatter_eq : scatter_S3072_S50331648x1_S50331648_n_0_0_1 = scat := by
  rfl

/-- The scatter's operand is zero everywhere. -/
private theorem v12_zero (j : S3072.Idx) : Read.val_main_v12 (F := Ideal) j = 0 := by
  rw [Read.val_main_v12_apply, Read.val_main_cst_2_apply]
  exact Ideal.ofBits_zero_f32

/-- The word `0x3F800000` is the number one. -/
private theorem ofBits_one_f32 : Ideal.ofBits .f32 0x3F800000#32 = 1 := by
  simp [Ideal.ofBits, Ideal.ieee, -EReal.coe_mul]
  norm_num

/-- The scatter's updates are one everywhere. -/
private theorem v19_one (j : S50331648.Idx) : Read.val_main_v19 (F := Ideal) j = 1 := by
  rw [Read.val_main_v19_apply, Read.val_main_cst_5_apply]
  exact ofBits_one_f32

/-- Counts at equal image, channel and bin are equal. -/
private theorem count_congr (x0 : (⟨4, ![16, 3, 1024, 1024]⟩ : Shape).Idx → EReal) {n n' : Fin 16} {c c' : Fin 3}
    {b b' : Fin 64} (hn : n = n') (hc : c = c') (hb : b = b') : count x0 n c b = count x0 n' c' b' := by
  subst hn hc hb
  rfl

/-- Slot `i` of the scattered histogram: the count of bin `i % 64` of channel `(i / 64) % 3` of image `i / 192`. -/
theorem ref_hist (x0 : (⟨S16x3x1024x1024, .f32⟩ : BufTy).Contents (Elt Ideal)) (i : Fin 3072) :
    Cert.ReferenceIdeal.Read.val_main_v20 (F := Ideal) x0 (ix1 i)
      = count x0 (⟨i.val / 192, by have := i.isLt; omega⟩ : Fin 16) (⟨i.val / 64 % 3, Nat.mod_lt _ (by norm_num)⟩ : Fin 3)
          (⟨i.val % 64, Nat.mod_lt _ (by norm_num)⟩ : Fin 64) := by
  have hi := i.isLt
  have h0 : Read.val_main_v20 (F := Ideal) x0
      = Ideal.hostScatterAdd scat (Read.val_main_v12 (F := Ideal)) (Read.val_main_v18 (F := Ideal) x0)
          (Read.val_main_v19 (F := Ideal)) := by
    unfold Read.val_main_v20 Host.scatterAdd
    rw [Ideal.hostScatterAdd_def, scatter_eq]
  rw [h0]
  refine (scatterAdd_apply _ _ _ i).trans ?_
  rw [v12_zero, zero_add]
  refine (sum_upd _).trans ?_
  refine (Finset.sum_congr rfl fun p _ => Finset.sum_congr rfl fun q _ => ?_ :
    _ = ∑ p : Fin 48, ∑ q : Fin 1048576,
      if (bin (x0 (pixIdx p q)) + BitVec.ofNat 32 p.val * 64#32).toInt = (i.val : ℤ) then (1 : EReal) else 0).trans ?_
  · rw [ref_index, v19_one]
  refine (count_landing (fun p q => bin (x0 (pixIdx p q))) (fun p q => bin_lt _) i).trans ?_
  refine (sum_pix _).trans ?_
  unfold count
  refine Finset.sum_congr rfl fun h _ => Finset.sum_congr rfl fun w _ => ?_
  have hh := h.isLt
  have hw := w.isLt
  have e : pixIdx (⟨i.val / 64, by omega⟩ : Fin 48) (pixOf h w)
      = ix4 (⟨i.val / 192, by omega⟩ : Fin 16) (⟨i.val / 64 % 3, Nat.mod_lt _ (by norm_num)⟩ : Fin 3) h w := by
    funext a
    match a with
    | ⟨0, _⟩ =>
      apply Fin.ext
      show i.val / 64 / 3 = i.val / 192
      omega
    | ⟨1, _⟩ => rfl
    | ⟨2, _⟩ =>
      apply Fin.ext
      show (1024 * h.val + w.val) / 1024 = h.val
      omega
    | ⟨3, _⟩ =>
      apply Fin.ext
      show (1024 * h.val + w.val) % 1024 = w.val
      omega
  show hot (bin (x0 (pixIdx (⟨i.val / 64, _⟩ : Fin 48) (pixOf h w)))) _ = _
  rw [e]

/-- The reference's `[16, 192]` feature matrix is the specification's. -/
theorem ref_feat (x0 : (⟨S16x3x1024x1024, .f32⟩ : BufTy).Contents (Elt Ideal)) :
    Cert.ReferenceIdeal.Read.val_main_v21 (F := Ideal) x0 = feat x0 := by
  funext i
  have h0 := idx2_lt0 i
  have h1 := idx2_lt1 i
  have e : Read.idx_main_v21 i = ix1 (⟨(i 0).val * 192 + (i 1).val, by omega⟩ : Fin 3072) := by
    funext a
    match a with
    | ⟨0, _⟩ => rfl
  rw [Read.val_main_v21_apply, e, ref_hist]
  unfold feat
  refine count_congr x0 (Fin.ext ?_) (Fin.ext ?_) (Fin.ext ?_)
  · show ((i 0).val * 192 + (i 1).val) / 192 = (i 0).val
    omega
  · show ((i 0).val * 192 + (i 1).val) / 64 % 3 = (i 1).val / 64
    omega
  · show ((i 0).val * 192 + (i 1).val) % 64 = (i 1).val % 64
    omega

end Cert.Hist

end
-- ==== Proof.Tail.lean ====
/-
  The layers after the histogram, which the two programs spell alike.

  Both programs feed the `[16, 192]` feature matrix through the same operations of the parameter vector: a product with
  the first 192 × 128 parameters plus a bias, a maximum with zero, a product with the next 128 × 32 parameters plus a
  bias, a shift by one more parameter, and `1 / (1 + exp (-·))`. The kernel applies them to its output array reshaped
  from `[16, 3, 64]` to `[16, 192]`, which lists each image's three channels of 64 bins in order.
-/
import proofs.«176124_j50113678410581_1_alg».proof.Proof.Gen.KernelIdeal.Frame
import proofs.«176124_j50113678410581_1_alg».proof.Proof.Gen.ReferenceIdeal.Read
import proofs.«176124_j50113678410581_1_alg».proof.Proof.Spec
import Idealize.ShloMosaic.Lib.StableHlo.Run
import Idealize.ShloMosaic.Lib.ValueIdx
import Idealize.ShloMosaic.Lib.Pipeline.Value

set_option maxRecDepth 16384

noncomputable section

namespace Cert.Hist

section Reference

open Idealize.ShloMosaic Cert.ReferenceIdeal Cert.ReferenceIdeal.Gen

/-- The layers after the histogram, as one function of the feature matrix and the parameter vector. -/
def mlp (feat : FVec Ideal S16x192 .f32) (p : FVec Ideal S28864 .f32) : FVec Ideal S16x32 .f32 :=
  Host.divf (broadcastInDim S16x32 ![] bcast_S_S16x32 (constant S_ .f32 0x3F800000#32)) (addf (broadcastInDim S16x32 ![] bcast_S_S16x32 (constant S_ .f32 0x3F800000#32)) (Host.exp (Host.negf (addf (broadcastInDim S16x32 ![] bcast_S_S16x32 (shapeCast _ (extractStridedSlice S1 ![28832] p slices_S28864_S1_28832) shapeCasts_S1_S_)) (addf (Host.dotGeneral dot_S16x128_S128x32_S16x32_1_0_0_1_n_n none (maximumf (addf (Host.dotGeneral dot_S16x192_S192x128_S16x128_1_0_0_1_n_n none feat (shapeCast _ (extractStridedSlice S24576 ![0] p slices_S28864_S24576_0) shapeCasts_S24576_S192x128)) (broadcastInDim S16x128 ![0, 1] bcast_S1x128_S16x128_0_1 (broadcastInDim S1x128 ![1] bcast_S128_S1x128_1 (extractStridedSlice S128 ![24576] p slices_S28864_S128_24576)))) (broadcastInDim S16x128 ![] bcast_S_S16x128 (constant S_ .f32 0x00000000#32))) (shapeCast _ (extractStridedSlice S4096 ![24704] p slices_S28864_S4096_24704) shapeCasts_S4096_S128x32)) (broadcastInDim S16x32 ![0, 1] bcast_S1x32_S16x32_0_1 (broadcastInDim S1x32 ![1] bcast_S32_S1x32_1 (extractStridedSlice S32 ![28800] p slices_S28864_S32_28800))))))))

/-- The reference's result is those layers of its feature matrix. -/
theorem ref_mlp (x0 : (⟨S16x3x1024x1024, .f32⟩ : BufTy).Contents (Elt Ideal)) (x1 : (⟨S28864, .f32⟩ : BufTy).Contents (Elt Ideal)) :
    Cert.ReferenceIdeal.Read.val_main_v46 (F := Ideal) x0 x1 = mlp (Cert.ReferenceIdeal.Read.val_main_v21 (F := Ideal) x0) x1 := rfl

end Reference

section Kernel

open Idealize.ShloMosaic Idealize.ShloMosaic.ValueIdx Idealize.ShloMosaic.TcCoe Idealize.SL.Sem Idealize.ShloMosaic.StableHlo
open Cert.KernelIdeal Cert.KernelIdeal.Gen

variable (m : (ℓ : Loc nD τ sig) → Buf (Elt Ideal) ℓ)

/-- The histogram array reshaped to `[16, 192]` is the feature matrix: column `k` is bin `k % 64` of channel `k / 64`. -/
theorem hist_feat (x : (⟨S16x3x1024x1024, .f32⟩ : BufTy).Contents (Elt Ideal)) :
    shapeCast S16x192 (hist x) shapeCasts_S16x3x64_S16x192 = feat x := by
  funext i
  have h1 : (i 1).val < 192 := idx2_lt1 i
  refine (shapeCast_apply (hist x) _ i
    (ix3 (i 0) (⟨(i 1).val / 64, by omega⟩ : Fin 3) (⟨(i 1).val % 64, Nat.mod_lt _ (by norm_num)⟩ : Fin 64)) ?_).trans rfl
  rw [Shape.rowMajor_val_three, Shape.rowMajor_val_two]
  show ((i 0).val * 3 + (i 1).val / 64) * 64 + (i 1).val % 64 = (i 0).val * 192 + (i 1).val
  omega

set_option maxHeartbeats 4000000 in
/-- What the host operations after the region leave in the result: the layers of the output array, reshaped, and the
    parameter vector. -/
theorem kernel_tail (c : Dev nD) :
    Pipeline.afterTail₀ cfgs (dats (F := Ideal) m) 0 (V0 m) [hostOps1, hostOps1_1, hostOps1_2] c main_v26
      = mlp (shapeCast S16x192 ((dats (F := Ideal) m 0 c).arrAt 1 cfg0.N) shapeCasts_S16x3x64_S16x192)
          (m ((c.tc : Thread nD τ).loc main_arg1)) := by
  unfold Pipeline.afterTail₀
  simp only [hostOps1, hostOps1_1, hostOps1_2, List.flatten_cons, List.flatten_nil, List.append_nil, List.cons_append,
    List.nil_append]
  after_results
  have e0 : Pipeline.withArrays (cfgs 0).spec c (V0 m c) (fun w => (dats (F := Ideal) m 0 c).arrAt w (cfgs 0).N)
      (Proc.devRef .tc main_v0) = (dats (F := Ideal) m 0 c).arrAt 1 cfg0.N :=
    Pipeline.withArrays_arr spec0 launch0.win.arr_inj c _ _ 1
  have e1 : Pipeline.withArrays (cfgs 0).spec c (V0 m c) (fun w => (dats (F := Ideal) m 0 c).arrAt w (cfgs 0).N)
      (Proc.devRef .tc main_arg1) = m ((c.tc : Thread nD τ).loc main_arg1) :=
    (Pipeline.withArrays_of_ne _ c (V0 m c) _ main_arg1
      (by exact (by decide : ∀ w, Pipeline.arrRef spec0 w ≠ main_arg1))).trans (V_main_arg1 m c)
  rw [e0, e1]
  unfold mlp
  rfl

end Kernel

end Cert.Hist

end
-- ==== Proof.Payload.lean ====
/-
  The kernel body's arithmetic, read at an index over the extended reals.

  One loop trip takes the carried `[1, 64]` vector and a chunk of 8 rows × 1024 lanes of one channel and adds, in
  lane `b`, the number of the chunk's pixels whose bin is `b`: the pixel times 64 is converted and clamped to its
  bin, the bin is compared with the lane's bin id along a new axis of extent 64, the one-bit result is widened and
  converted to `0` or `1`, and those are summed over the 1024 lanes and then over the 8 rows. The other payloads
  are a zero vector, the sum of a loaded scratch row with a loop's result, and changes of shape that move nothing.
-/
import proofs.«176124_j50113678410581_1_alg».proof.Proof.Gen.KernelIdeal.Skeleton
import proofs.«176124_j50113678410581_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Hist

open Idealize.ShloMosaic Idealize.ShloMosaic.ValueIdx Cert.KernelIdeal Cert.KernelIdeal.Gen

/-- The number of a chunk's pixels in bin `b`: the contributions summed over its 8 rows and 1024 lanes. -/
def chunkCount (v : Vec Ideal S1x1x8x1024 .f32) (b : Fin 64) : EReal :=
  ∑ r : Fin 8, ∑ w : Fin 1024, hot (bin (v (ix4 (0 : Fin 1) (0 : Fin 1) r w))) b

/-- The widened, converted one-bit test of two words read at an index is the contribution `hot`. -/
private theorem hot_of {s : Shape} (x y : IVec s 32) (h : 1 < 32) (i : s.Idx) (a : BitVec 32) (b : Fin 64)
    (hx : x i = a) (hy : y i = BitVec.ofNat 32 b.val) :
    (sitofp .f32 (extui 32 (cmpi .eq x y) h) : FVec Ideal s .f32) i = hot a b := by
  show ((((IntOp.cmpi .eq (x i) (y i)).setWidth 32).toInt : ℝ) : EReal) = _
  rw [hx, hy]
  rfl

/-- The clamped bin of the chunk's pixel in row `r`, lane `w`. -/
private theorem bin_at (v : Vec Ideal S1x1x8x1024 .f32) (r : Fin 8) (w : Fin 1024) :
    minsi (broadcast S8x1024 63#32)
        (maxsi (broadcast S8x1024 0#32)
          (fptosi 32
            (mulf (F := Ideal) (shapeCast S8x1024 v shapeCasts_S1x1x8x1024_S8x1024)
              (broadcast S8x1024 (FloatOps.ofBits FTy.f32 0x42800000#32))))) (ix2 r w)
      = bin (v (ix4 (0 : Fin 1) (0 : Fin 1) r w)) := by
  have hv : shapeCast S8x1024 v shapeCasts_S1x1x8x1024_S8x1024 (ix2 r w) = v (ix4 (0 : Fin 1) (0 : Fin 1) r w) :=
    shapeCast_apply v _ _ _ (by
      rw [Shape.rowMajor_val_four, Shape.rowMajor_val_two]
      show ((0 * 1 + 0) * 8 + r.val) * 1024 + w.val = r.val * 1024 + w.val
      omega)
  show IntOp.minsi 63#32 (IntOp.maxsi 0#32 (Ideal.fptosi 32
    (shapeCast S8x1024 v shapeCasts_S1x1x8x1024_S8x1024 (ix2 r w) * Ideal.ofBits .f32 0x42800000#32))) = _
  rw [hv]
  rfl

/-- One trip: lane `b` of the carried vector gains the chunk's count of bin `b`. -/
theorem pay5_apply (acc : FVec Ideal S1x64 .f32) (v : Vec Ideal S1x1x8x1024 .f32) (b : Fin 64) :
    k0_pay5 (F := Ideal) acc v (ix2 (0 : Fin 1) b) = acc (ix2 (0 : Fin 1) b) + chunkCount v b := by
  unfold k0_pay5 chunkCount
  refine congrArg (acc (ix2 (0 : Fin 1) b) + ·) ?_
  refine (shapeCast_a_1a_apply _ _ 0 b).trans ?_
  refine (Ideal.multiReduction_add_single _ _ _ _ _ _).trans ?_
  refine Finset.sum_congr rfl fun (r : Fin 8) _ => ?_
  refine (Ideal.multiReduction_add_single _ _ _ _ _ _).trans ?_
  refine Finset.sum_congr rfl fun (w : Fin 1024) _ => ?_
  have hI : reduces_S8x64x1024_S8x64.lift (reduces_S8x64_S64.lift (ix1 b) r) w = ix3 r b w := by
    funext a
    match a with
    | ⟨0, _⟩ => rfl
    | ⟨1, _⟩ => rfl
    | ⟨2, _⟩ => rfl
  refine (congrArg _ hI).trans ?_
  refine hot_of _ _ _ _ _ _ ?_ (iota_single_apply _ _ _ _ _ _)
  refine (broadcastTo_apply _ _ (ix3 r b w) (ix3 r (0 : Fin 1) w)
    fun a => match a with | ⟨0, _⟩ => rfl | ⟨1, _⟩ => rfl | ⟨2, _⟩ => rfl).trans ?_
  rw [shapeCast_self]
  refine (shapeCast_apply _ _ (ix3 r (0 : Fin 1) w) (ix2 r w) (by
    rw [Shape.rowMajor_val_three, Shape.rowMajor_val_two]
    show r.val * 1024 + w.val = (r.val * 1 + 0) * 1024 + w.val
    omega)).trans ?_
  exact bin_at v r w

/-- The three channels' trips are the same function. -/
theorem pay8_eq (acc : FVec Ideal S1x64 .f32) (v : Vec Ideal S1x1x8x1024 .f32) :
    k0_pay8 (F := Ideal) acc v = k0_pay5 (F := Ideal) acc v := rfl
theorem pay11_eq (acc : FVec Ideal S1x64 .f32) (v : Vec Ideal S1x1x8x1024 .f32) :
    k0_pay11 (F := Ideal) acc v = k0_pay5 (F := Ideal) acc v := rfl

/-- Each loop starts from the zero vector. -/
theorem pay4_apply (y : S1x64.Idx) : k0_pay4 (F := Ideal) y = 0 := by
  unfold k0_pay4
  exact Ideal.ofBits_zero_f32
theorem pay7_apply (y : S1x64.Idx) : k0_pay7 (F := Ideal) y = 0 := by
  unfold k0_pay7
  exact Ideal.ofBits_zero_f32
theorem pay10_apply (y : S1x64.Idx) : k0_pay10 (F := Ideal) y = 0 := by
  unfold k0_pay10
  exact Ideal.ofBits_zero_f32

/-- The scratch is reset to zero. -/
theorem pay3_apply (y : S3x64.Idx) : k0_pay3 (F := Ideal) y = 0 := by
  unfold k0_pay3
  rw [shapeCast_self]
  exact Ideal.ofBits_zero_f32

/-- A scratch row gains a loop's result, lane by lane. -/
theorem pay6_apply (v5 : FVec Ideal S1x64 .f32) (v6 : Vec Ideal S1x64 .f32) (y : S1x64.Idx) :
    k0_pay6 (F := Ideal) v5 v6 y = v6 y + v5 y := by
  unfold k0_pay6
  rw [shapeCast_self]
  rfl
theorem pay9_apply (v13 : FVec Ideal S1x64 .f32) (v14 : Vec Ideal S1x64 .f32) (y : S1x64.Idx) :
    k0_pay9 (F := Ideal) v13 v14 y = v14 y + v13 y := by
  unfold k0_pay9
  rw [shapeCast_self]
  rfl
theorem pay12_apply (v21 : FVec Ideal S1x64 .f32) (v22 : Vec Ideal S1x64 .f32) (y : S1x64.Idx) :
    k0_pay12 (F := Ideal) v21 v22 y = v22 y + v21 y := rfl

/-- A change of shape between equal shapes moves nothing. -/
theorem pay1_apply (v23 : FVec Ideal S1x64 .f32) (y : S1x64.Idx) : k0_pay1 (F := Ideal) v23 y = v23 y := by
  unfold k0_pay1
  rw [shapeCast_self]

/-- The scratch `[3, 64]` written out as the block `[1, 3, 64]`: entry `[0, ch, b]` is scratch entry `[ch, b]`. -/
theorem pay2_apply (v30 : Vec Ideal S3x64 .f32) (ch : Fin 3) (b : Fin 64) :
    k0_pay2 (F := Ideal) v30 (ix3 (0 : Fin 1) ch b) = v30 (ix2 ch b) := by
  unfold k0_pay2
  refine (shapeCast_addUnit_apply _ v30 _ _).trans ?_
  congr 1
  funext a
  match a with
  | ⟨0, _⟩ => rfl
  | ⟨1, _⟩ => rfl

end Cert.Hist

end
-- ==== Proof.Trips.lean ====
/-
  The body's three loops, one per channel, each over the 32 chunks of 8 rows of a 256-row block.

  A trip loads its chunk through a rectangle whose row offset is 8 times the trip number, and yields the carried
  vector plus the chunk's bin counts. So after `n` trips the carried vector is its initial value plus the counts of the
  first `n` chunks, and the loop's result from the zero vector is the whole block's bin counts for that channel.
-/
import proofs.«176124_j50113678410581_1_alg».proof.Proof.Gen.KernelIdeal.Frame
import proofs.«176124_j50113678410581_1_alg».proof.Proof.Spec
import proofs.«176124_j50113678410581_1_alg».proof.Proof.Payload
import Idealize.ShloMosaic.Lib.ValueIdx
import Idealize.ShloMosaic.Lib.Pipeline.Value

set_option maxRecDepth 16384

noncomputable section

open scoped BigOperators

namespace Cert.Hist

open Idealize.ShloMosaic Idealize.ShloMosaic.ValueIdx Idealize.ShloMosaic.TcCoe Idealize.SL.Sem
open Cert.KernelIdeal Cert.KernelIdeal.Gen

/-- Chunk `k` of channel `ch` of a block: its rows `8k … 8k + 7`, all 1024 lanes. -/
def chunkOf (x0 : Vec Ideal S1x3x256x1024 .f32) (ch : Fin 3) (k : Fin 32) : Vec Ideal S1x1x8x1024 .f32 :=
  fun y => x0 (ix4 (0 : Fin 1) ch
    (⟨8 * k.val + (y 2).val, by have : (y 2).val < 8 := (y 2).isLt; have := k.isLt; omega⟩ : Fin 256)
    (⟨(y 3).val, (y 3).isLt⟩ : Fin 1024))

/-- The count of bin `b` in channel `ch` over a whole 256-row block: its 32 chunks' counts. -/
def blockCount (x0 : Vec Ideal S1x3x256x1024 .f32) (ch : Fin 3) (b : Fin 64) : EReal :=
  ∑ k : Fin 32, chunkCount (chunkOf x0 ch k) b

/-- Chunk `k`'s count as a function of a natural number (zero past the last chunk), for sums over ranges. -/
def chunkCountN (x0 : Vec Ideal S1x3x256x1024 .f32) (ch : Fin 3) (b : Fin 64) (k : ℕ) : EReal :=
  if h : k < 32 then chunkCount (chunkOf x0 ch ⟨k, h⟩) b else 0

theorem sum_chunkCountN (x0 : Vec Ideal S1x3x256x1024 .f32) (ch : Fin 3) (b : Fin 64) :
    ∑ k ∈ Finset.range 32, chunkCountN x0 ch b k = blockCount x0 ch b := by
  unfold blockCount
  rw [Finset.sum_range]
  refine Finset.sum_congr rfl fun k _ => ?_
  unfold chunkCountN
  rw [dif_pos k.isLt]

/-! ### Loop 1: channel 0 -/

theorem trips1 : k0_t1_loop.trips = 32 := by decide

/-- Trip `k` loads rows `8k … 8k + 7` of channel 0: the load's offsets in closed form. -/
theorem off1_eq : ∀ k : Fin k0_t1_loop.trips,
    k0_off1 k 0 = 0 ∧ k0_off1 k 1 = 0 ∧ k0_off1 k 2 = 8 * k.val ∧ k0_off1 k 3 = 0 := by decide +kernel

/-- What trip `k` loads from a block held whole in the staging buffer is chunk `k` of channel 0. -/
theorem read1 (arg2 : Memref sig .tc .vmem S1x3x256x1024 .f32) (harg2 : arg2.IsWhole) (x0 : Vec Ideal S1x3x256x1024 .f32)
    (k : Fin k0_t1_loop.trips) :
    View.readAt (Elt Ideal) arg2.view (Rect.unit (s := S1x3x256x1024) (k0_off1 k) S1x1x8x1024.size (Cert.KernelIdeal.Gen.k0_off1_inb k)).toLoadRect (harg2.unread x0)
      = chunkOf x0 0 ⟨k.val, lt_of_lt_of_eq k.isLt trips1⟩ := by
  rw [View.readAt_eq_ld, harg2.read_unread]
  obtain ⟨h0, h1, h2, h3⟩ := off1_eq k
  funext y
  unfold chunkOf
  show x0 ((Rect.unit (s := S1x3x256x1024) (k0_off1 k) S1x1x8x1024.size (Cert.KernelIdeal.Gen.k0_off1_inb k)).idx y) = _
  refine congrArg x0 (funext fun a => Fin.ext ?_)
  match a with
  | ⟨0, _⟩ => show k0_off1 k 0 + 1 * (y 0).val = 0; have : (y 0).val < 1 := (y 0).isLt; omega
  | ⟨1, _⟩ => show k0_off1 k 1 + 1 * (y 1).val = 0; have : (y 1).val < 1 := (y 1).isLt; omega
  | ⟨2, _⟩ => show k0_off1 k 2 + 1 * (y 2).val = 8 * k.val + (y 2).val; omega
  | ⟨3, _⟩ => show k0_off1 k 3 + 1 * (y 3).val = (y 3).val; omega

/-- Trip `k`, opened once: the carried vector and chunk `k` of channel 0 go through the trip's payload. -/
theorem trip1 (c : Dev nD) (i : grid0.Coords) (arg2 : Memref sig .tc .vmem S1x3x256x1024 .f32) (harg2 : arg2.IsWhole)
    (arg3 : Memref sig .tc .vmem S1x3x64 .f32) (harg3 : arg3.IsWhole) (arg4 : Memref sig .tc .vmem S3x64 .f32) (harg4 : arg4.IsWhole)
    (x0 : Vec Ideal S1x3x256x1024 .f32) (k : Fin k0_t1_loop.trips) (acc : FVec Ideal S1x64 .f32) :
    tripR_k0_t1 (F := Ideal) Variants.none c none i arg2 harg2 arg3 harg3 arg4 harg4 (harg2.unread x0) k acc
      = k0_pay5 (F := Ideal) acc (chunkOf x0 0 ⟨k.val, lt_of_lt_of_eq k.isLt trips1⟩) := by
  unfold tripR_k0_t1 trip_k0_t1
  dsimp only
  rw [read1]

/-- After `n` trips lane `b` of the carried vector is its initial value plus the counts of the first `n` chunks. -/
theorem st1_apply (c : Dev nD) (i : grid0.Coords) (arg2 : Memref sig .tc .vmem S1x3x256x1024 .f32) (harg2 : arg2.IsWhole)
    (arg3 : Memref sig .tc .vmem S1x3x64 .f32) (harg3 : arg3.IsWhole) (arg4 : Memref sig .tc .vmem S3x64 .f32) (harg4 : arg4.IsWhole)
    (x0 : Vec Ideal S1x3x256x1024 .f32) (init : FVec Ideal S1x64 .f32) (b : Fin 64) :
    ∀ n : ℕ, n ≤ 32 →
      st_k0_t1 (F := Ideal) Variants.none c none i arg2 harg2 arg3 harg3 arg4 harg4 (harg2.unread x0) init n (ix2 (0 : Fin 1) b)
        = init (ix2 (0 : Fin 1) b) + ∑ k ∈ Finset.range n, chunkCountN x0 0 b k
  | 0, _ => by rw [Finset.range_zero, Finset.sum_empty, add_zero]; rfl
  | n + 1, hn => by
    have hk : n < k0_t1_loop.trips := by rw [trips1]; omega
    have e := st_k0_t1_succ (F := Ideal) Variants.none c none i arg2 harg2 arg3 harg3 arg4 harg4 (harg2.unread x0) init ⟨n, hk⟩
    rw [show n + 1 = (⟨n, hk⟩ : Fin k0_t1_loop.trips).val + 1 from rfl, e, trip1, pay5_apply,
      st1_apply c i arg2 harg2 arg3 harg3 arg4 harg4 x0 init b n (by omega), Finset.sum_range_succ, add_assoc]
    congr 2
    unfold chunkCountN
    rw [dif_pos (show n < 32 by omega)]

/-- The loop's result from the zero vector: lane `b` is the block's count of bin `b` in channel 0. -/
theorem loop1_apply (c : Dev nD) (i : grid0.Coords) (arg2 : Memref sig .tc .vmem S1x3x256x1024 .f32) (harg2 : arg2.IsWhole)
    (arg3 : Memref sig .tc .vmem S1x3x64 .f32) (harg3 : arg3.IsWhole) (arg4 : Memref sig .tc .vmem S3x64 .f32) (harg4 : arg4.IsWhole)
    (x0 : Vec Ideal S1x3x256x1024 .f32) (init : FVec Ideal S1x64 .f32) (hinit : ∀ y, init y = 0) (b : Fin 64) :
    st_k0_t1 (F := Ideal) Variants.none c none i arg2 harg2 arg3 harg3 arg4 harg4 (harg2.unread x0) init 32 (ix2 (0 : Fin 1) b)
      = blockCount x0 0 b := by
  rw [st1_apply c i arg2 harg2 arg3 harg3 arg4 harg4 x0 init b 32 le_rfl, hinit, zero_add, sum_chunkCountN]

/-! ### Loop 2: channel 1 -/

theorem trips2 : k0_t2_loop.trips = 32 := by decide

/-- Trip `k` loads rows `8k … 8k + 7` of channel 1: the load's offsets in closed form. -/
theorem off2_eq : ∀ k : Fin k0_t2_loop.trips,
    k0_off2 k 0 = 0 ∧ k0_off2 k 1 = 1 ∧ k0_off2 k 2 = 8 * k.val ∧ k0_off2 k 3 = 0 := by decide +kernel

/-- What trip `k` loads from a block held whole in the staging buffer is chunk `k` of channel 1. -/
theorem read2 (arg2 : Memref sig .tc .vmem S1x3x256x1024 .f32) (harg2 : arg2.IsWhole) (x0 : Vec Ideal S1x3x256x1024 .f32)
    (k : Fin k0_t2_loop.trips) :
    View.readAt (Elt Ideal) arg2.view (Rect.unit (s := S1x3x256x1024) (k0_off2 k) S1x1x8x1024.size (Cert.KernelIdeal.Gen.k0_off2_inb k)).toLoadRect (harg2.unread x0)
      = chunkOf x0 1 ⟨k.val, lt_of_lt_of_eq k.isLt trips2⟩ := by
  rw [View.readAt_eq_ld, harg2.read_unread]
  obtain ⟨h0, h1, h2, h3⟩ := off2_eq k
  funext y
  unfold chunkOf
  show x0 ((Rect.unit (s := S1x3x256x1024) (k0_off2 k) S1x1x8x1024.size (Cert.KernelIdeal.Gen.k0_off2_inb k)).idx y) = _
  refine congrArg x0 (funext fun a => Fin.ext ?_)
  match a with
  | ⟨0, _⟩ => show k0_off2 k 0 + 1 * (y 0).val = 0; have : (y 0).val < 1 := (y 0).isLt; omega
  | ⟨1, _⟩ => show k0_off2 k 1 + 1 * (y 1).val = 1; have : (y 1).val < 1 := (y 1).isLt; omega
  | ⟨2, _⟩ => show k0_off2 k 2 + 1 * (y 2).val = 8 * k.val + (y 2).val; omega
  | ⟨3, _⟩ => show k0_off2 k 3 + 1 * (y 3).val = (y 3).val; omega

/-- Trip `k`, opened once: the carried vector and chunk `k` of channel 1 go through the trip's payload. -/
theorem trip2 (c : Dev nD) (i : grid0.Coords) (arg2 : Memref sig .tc .vmem S1x3x256x1024 .f32) (harg2 : arg2.IsWhole)
    (arg3 : Memref sig .tc .vmem S1x3x64 .f32) (harg3 : arg3.IsWhole) (arg4 : Memref sig .tc .vmem S3x64 .f32) (harg4 : arg4.IsWhole)
    (x0 : Vec Ideal S1x3x256x1024 .f32) (k : Fin k0_t2_loop.trips) (acc : FVec Ideal S1x64 .f32) :
    tripR_k0_t2 (F := Ideal) Variants.none c none i arg2 harg2 arg3 harg3 arg4 harg4 (harg2.unread x0) k acc
      = k0_pay5 (F := Ideal) acc (chunkOf x0 1 ⟨k.val, lt_of_lt_of_eq k.isLt trips2⟩) := by
  unfold tripR_k0_t2 trip_k0_t2
  dsimp only
  rw [read2]
  exact pay8_eq _ _

/-- After `n` trips lane `b` of the carried vector is its initial value plus the counts of the first `n` chunks. -/
theorem st2_apply (c : Dev nD) (i : grid0.Coords) (arg2 : Memref sig .tc .vmem S1x3x256x1024 .f32) (harg2 : arg2.IsWhole)
    (arg3 : Memref sig .tc .vmem S1x3x64 .f32) (harg3 : arg3.IsWhole) (arg4 : Memref sig .tc .vmem S3x64 .f32) (harg4 : arg4.IsWhole)
    (x0 : Vec Ideal S1x3x256x1024 .f32) (init : FVec Ideal S1x64 .f32) (b : Fin 64) :
    ∀ n : ℕ, n ≤ 32 →
      st_k0_t2 (F := Ideal) Variants.none c none i arg2 harg2 arg3 harg3 arg4 harg4 (harg2.unread x0) init n (ix2 (0 : Fin 1) b)
        = init (ix2 (0 : Fin 1) b) + ∑ k ∈ Finset.range n, chunkCountN x0 1 b k
  | 0, _ => by rw [Finset.range_zero, Finset.sum_empty, add_zero]; rfl
  | n + 1, hn => by
    have hk : n < k0_t2_loop.trips := by rw [trips2]; omega
    have e := st_k0_t2_succ (F := Ideal) Variants.none c none i arg2 harg2 arg3 harg3 arg4 harg4 (harg2.unread x0) init ⟨n, hk⟩
    rw [show n + 1 = (⟨n, hk⟩ : Fin k0_t2_loop.trips).val + 1 from rfl, e, trip2, pay5_apply,
      st2_apply c i arg2 harg2 arg3 harg3 arg4 harg4 x0 init b n (by omega), Finset.sum_range_succ, add_assoc]
    congr 2
    unfold chunkCountN
    rw [dif_pos (show n < 32 by omega)]

/-- The loop's result from the zero vector: lane `b` is the block's count of bin `b` in channel 1. -/
theorem loop2_apply (c : Dev nD) (i : grid0.Coords) (arg2 : Memref sig .tc .vmem S1x3x256x1024 .f32) (harg2 : arg2.IsWhole)
    (arg3 : Memref sig .tc .vmem S1x3x64 .f32) (harg3 : arg3.IsWhole) (arg4 : Memref sig .tc .vmem S3x64 .f32) (harg4 : arg4.IsWhole)
    (x0 : Vec Ideal S1x3x256x1024 .f32) (init : FVec Ideal S1x64 .f32) (hinit : ∀ y, init y = 0) (b : Fin 64) :
    st_k0_t2 (F := Ideal) Variants.none c none i arg2 harg2 arg3 harg3 arg4 harg4 (harg2.unread x0) init 32 (ix2 (0 : Fin 1) b)
      = blockCount x0 1 b := by
  rw [st2_apply c i arg2 harg2 arg3 harg3 arg4 harg4 x0 init b 32 le_rfl, hinit, zero_add, sum_chunkCountN]

/-! ### Loop 3: channel 2 -/

theorem trips3 : k0_t3_loop.trips = 32 := by decide

/-- Trip `k` loads rows `8k … 8k + 7` of channel 2: the load's offsets in closed form. -/
theorem off3_eq : ∀ k : Fin k0_t3_loop.trips,
    k0_off3 k 0 = 0 ∧ k0_off3 k 1 = 2 ∧ k0_off3 k 2 = 8 * k.val ∧ k0_off3 k 3 = 0 := by decide +kernel

/-- What trip `k` loads from a block held whole in the staging buffer is chunk `k` of channel 2. -/
theorem read3 (arg2 : Memref sig .tc .vmem S1x3x256x1024 .f32) (harg2 : arg2.IsWhole) (x0 : Vec Ideal S1x3x256x1024 .f32)
    (k : Fin k0_t3_loop.trips) :
    View.readAt (Elt Ideal) arg2.view (Rect.unit (s := S1x3x256x1024) (k0_off3 k) S1x1x8x1024.size (Cert.KernelIdeal.Gen.k0_off3_inb k)).toLoadRect (harg2.unread x0)
      = chunkOf x0 2 ⟨k.val, lt_of_lt_of_eq k.isLt trips3⟩ := by
  rw [View.readAt_eq_ld, harg2.read_unread]
  obtain ⟨h0, h1, h2, h3⟩ := off3_eq k
  funext y
  unfold chunkOf
  show x0 ((Rect.unit (s := S1x3x256x1024) (k0_off3 k) S1x1x8x1024.size (Cert.KernelIdeal.Gen.k0_off3_inb k)).idx y) = _
  refine congrArg x0 (funext fun a => Fin.ext ?_)
  match a with
  | ⟨0, _⟩ => show k0_off3 k 0 + 1 * (y 0).val = 0; have : (y 0).val < 1 := (y 0).isLt; omega
  | ⟨1, _⟩ => show k0_off3 k 1 + 1 * (y 1).val = 2; have : (y 1).val < 1 := (y 1).isLt; omega
  | ⟨2, _⟩ => show k0_off3 k 2 + 1 * (y 2).val = 8 * k.val + (y 2).val; omega
  | ⟨3, _⟩ => show k0_off3 k 3 + 1 * (y 3).val = (y 3).val; omega

/-- Trip `k`, opened once: the carried vector and chunk `k` of channel 2 go through the trip's payload. -/
theorem trip3 (c : Dev nD) (i : grid0.Coords) (arg2 : Memref sig .tc .vmem S1x3x256x1024 .f32) (harg2 : arg2.IsWhole)
    (arg3 : Memref sig .tc .vmem S1x3x64 .f32) (harg3 : arg3.IsWhole) (arg4 : Memref sig .tc .vmem S3x64 .f32) (harg4 : arg4.IsWhole)
    (x0 : Vec Ideal S1x3x256x1024 .f32) (k : Fin k0_t3_loop.trips) (acc : FVec Ideal S1x64 .f32) :
    tripR_k0_t3 (F := Ideal) Variants.none c none i arg2 harg2 arg3 harg3 arg4 harg4 (harg2.unread x0) k acc
      = k0_pay5 (F := Ideal) acc (chunkOf x0 2 ⟨k.val, lt_of_lt_of_eq k.isLt trips3⟩) := by
  unfold tripR_k0_t3 trip_k0_t3
  dsimp only
  rw [read3]
  exact pay11_eq _ _

/-- After `n` trips lane `b` of the carried vector is its initial value plus the counts of the first `n` chunks. -/
theorem st3_apply (c : Dev nD) (i : grid0.Coords) (arg2 : Memref sig .tc .vmem S1x3x256x1024 .f32) (harg2 : arg2.IsWhole)
    (arg3 : Memref sig .tc .vmem S1x3x64 .f32) (harg3 : arg3.IsWhole) (arg4 : Memref sig .tc .vmem S3x64 .f32) (harg4 : arg4.IsWhole)
    (x0 : Vec Ideal S1x3x256x1024 .f32) (init : FVec Ideal S1x64 .f32) (b : Fin 64) :
    ∀ n : ℕ, n ≤ 32 →
      st_k0_t3 (F := Ideal) Variants.none c none i arg2 harg2 arg3 harg3 arg4 harg4 (harg2.unread x0) init n (ix2 (0 : Fin 1) b)
        = init (ix2 (0 : Fin 1) b) + ∑ k ∈ Finset.range n, chunkCountN x0 2 b k
  | 0, _ => by rw [Finset.range_zero, Finset.sum_empty, add_zero]; rfl
  | n + 1, hn => by
    have hk : n < k0_t3_loop.trips := by rw [trips3]; omega
    have e := st_k0_t3_succ (F := Ideal) Variants.none c none i arg2 harg2 arg3 harg3 arg4 harg4 (harg2.unread x0) init ⟨n, hk⟩
    rw [show n + 1 = (⟨n, hk⟩ : Fin k0_t3_loop.trips).val + 1 from rfl, e, trip3, pay5_apply,
      st3_apply c i arg2 harg2 arg3 harg3 arg4 harg4 x0 init b n (by omega), Finset.sum_range_succ, add_assoc]
    congr 2
    unfold chunkCountN
    rw [dif_pos (show n < 32 by omega)]

/-- The loop's result from the zero vector: lane `b` is the block's count of bin `b` in channel 2. -/
theorem loop3_apply (c : Dev nD) (i : grid0.Coords) (arg2 : Memref sig .tc .vmem S1x3x256x1024 .f32) (harg2 : arg2.IsWhole)
    (arg3 : Memref sig .tc .vmem S1x3x64 .f32) (harg3 : arg3.IsWhole) (arg4 : Memref sig .tc .vmem S3x64 .f32) (harg4 : arg4.IsWhole)
    (x0 : Vec Ideal S1x3x256x1024 .f32) (init : FVec Ideal S1x64 .f32) (hinit : ∀ y, init y = 0) (b : Fin 64) :
    st_k0_t3 (F := Ideal) Variants.none c none i arg2 harg2 arg3 harg3 arg4 harg4 (harg2.unread x0) init 32 (ix2 (0 : Fin 1) b)
      = blockCount x0 2 b := by
  rw [st3_apply c i arg2 harg2 arg3 harg3 arg4 harg4 x0 init b 32 le_rfl, hinit, zero_add, sum_chunkCountN]

end Cert.Hist

end
-- ==== Proof.Pieces.lean ====
/-
  What each control case of the body leaves, read at an index.

  At the first row-tile of an image the body zeroes the `[3, 64]` scratch and then, channel by channel, adds the
  block's bin counts to the (zero) scratch row: the scratch ends at the block's counts. At the other tiles the same
  additions start from what the previous tile left: the scratch gains the block's counts. At the last tile the
  scratch is, besides, copied out as the `[1, 3, 64]` output block.
-/
import proofs.«176124_j50113678410581_1_alg».proof.Proof.Gen.KernelIdeal.Frame
import proofs.«176124_j50113678410581_1_alg».proof.Proof.Spec
import proofs.«176124_j50113678410581_1_alg».proof.Proof.Payload
import proofs.«176124_j50113678410581_1_alg».proof.Proof.Trips
import Idealize.ShloMosaic.Lib.ValueIdx
import Idealize.ShloMosaic.Lib.Pipeline.Value
import Idealize.ShloMosaic.Lib.Pipeline.CanonAppend

set_option maxRecDepth 16384

noncomputable section

open scoped BigOperators

namespace Cert.Hist

open Idealize.ShloMosaic Idealize.ShloMosaic.ValueIdx Idealize.ShloMosaic.TcCoe Idealize.SL.Sem
open Cert.KernelIdeal Cert.KernelIdeal.Gen

/-- A scratch entry's channel and bin, as numbers below 3 and 64. -/
def chOf (y : S3x64.Idx) : Fin 3 := ⟨(y 0).val, (y 0).isLt⟩
def binOf (y : S3x64.Idx) : Fin 64 := ⟨(y 1).val, (y 1).isLt⟩

/-- A load of one row of the scratch held whole at `xs0` reads `xs0` along that row. -/
theorem row_read (arg4 : Memref sig .tc .vmem S3x64 .f32) (harg4 : arg4.IsWhole) (xs0 : Vec Ideal S3x64 .f32)
    (off : Fin 2 → ℕ) (inb : ∀ a, off a + S1x64.size a ≤ S3x64.size a)
    (x : (Rect.unit (s := S3x64) off S1x64.size inb).shape.Idx) :
    View.readAt (Elt Ideal) arg4.view (Rect.unit (s := S3x64) off S1x64.size inb).toLoadRect (harg4.unread xs0) x
      = xs0 ((Rect.unit (s := S3x64) off S1x64.size inb).emb x) := by
  rw [View.readAt_eq_ld, harg4.read_unread]; rfl

/-- Every index of a `[1, 64]` row is `[0, lane]`. -/
theorem row_ix (x : S1x64.Idx) : x = ix2 (0 : Fin 1) (⟨(x 1).val, (x 1).isLt⟩ : Fin 64) := by
  funext a
  match a with
  | ⟨0, _⟩ => exact Fin.ext (by have : (x 0).val < 1 := (x 0).isLt; show (x 0).val = 0; omega)
  | ⟨1, _⟩ => rfl

/-- The loops' trip count, computed from their bounds `0` and `0 + 32` and step `1`, is 32. -/
theorem trips_lit : Scf.trips (0#32) (Scalar.addi 0#32 32#32) 1#32 = 32 := by decide

/-- A loop total whose lane `b` is `cnt b`, read at a row store's lane `x`: `cnt` at that lane. -/
theorem row_tot (off : Fin 2 → ℕ) (inb : ∀ a, off a + S1x64.size a ≤ S3x64.size a) (h1 : off 1 = 0)
    (tot : (Rect.unit (s := S3x64) off S1x64.size inb).shape.Idx → EReal) (cnt : Fin 64 → EReal)
    (htot : ∀ b : Fin 64, tot (ix2 (0 : Fin 1) b) = cnt b)
    (x : (Rect.unit (s := S3x64) off S1x64.size inb).shape.Idx) :
    tot x = cnt (binOf ((Rect.unit (s := S3x64) off S1x64.size inb).emb x)) := by
  have hb : binOf ((Rect.unit (s := S3x64) off S1x64.size inb).emb x) = ⟨(x 1).val, (x 1).isLt⟩ :=
    Fin.ext (by show off 1 + 1 * (x 1).val = (x 1).val; omega)
  rw [hb, ← htot, ← row_ix x]

/-- The channel of a row store's entries is the row. -/
theorem row_ch (off : Fin 2 → ℕ) (inb : ∀ a, off a + S1x64.size a ≤ S3x64.size a) (r : Fin 3) (h0 : off 0 = r.val)
    (x : (Rect.unit (s := S3x64) off S1x64.size inb).shape.Idx) :
    chOf ((Rect.unit (s := S3x64) off S1x64.size inb).emb x) = r :=
  Fin.ext (by show off 0 + 1 * (x 0).val = r.val; have : (x 0).val < 1 := (x 0).isLt; omega)

theorem hz2 : (![0, 0] : Fin 2 → Nat) = fun _ => 0 := funext fun a => by fin_cases a <;> rfl
theorem hz3 : (![0, 0, 0] : Fin 3 → Nat) = fun _ => 0 := funext fun a => by fin_cases a <;> rfl

/-- A load after a store of zeros to the whole scratch and later stores that miss the loaded entries reads zeros. -/
theorem readback_zero (v : View sig .tc .vmem S3x64 .f32) (z : S3x64.Idx → EReal) (hz : ∀ y, z y = 0)
    (inbz : ∀ a, (![0, 0] : Fin 2 → ℕ) a + S3x64.size a ≤ S3x64.size a)
    (L : List (View.Piece (Elt Ideal) S3x64 .f32)) (B : LoadRect S3x64)
    (hskip : ∀ p ∈ L, ∀ j : B.shape.Idx, B.idx j ∉ p.1.set) (j : B.shape.Idx) :
    v.readCov (L ++ [⟨Rect.unit ![0, 0] S3x64.size inbz, z⟩]) B j = 0 := by
  have hcov : ∀ j : B.shape.Idx, ∃ p ∈ L ++ [(⟨Rect.unit ![0, 0] S3x64.size inbz, z⟩ : View.Piece (Elt Ideal) S3x64 .f32)],
      B.idx j ∈ p.1.set := fun j =>
    ⟨⟨Rect.unit ![0, 0] S3x64.size inbz, z⟩, List.mem_append_right _ (List.mem_singleton_self _),
      View.mem_set_unit_zero hz2 inbz _⟩
  refine (congrFun (View.readCov_eq_canon v _ B hcov) j).trans ?_
  clear hcov
  show View.canon (Val := Elt Ideal) (e := .f32) (L ++ [⟨Rect.unit ![0, 0] S3x64.size inbz, z⟩]) (B.idx j) = 0
  induction L with
  | nil => rw [List.nil_append, View.canon_unit_zero hz2]; exact hz _
  | cons p L ih =>
    rw [List.cons_append, View.canon_cons_of_not_mem _ _ (hskip p (by simp) j)]
    exact ih (fun q hq => hskip q (by simp [hq]))

/-- Entries of row `r'` are not entries of row `r` when `r ≠ r'`. -/
theorem row_not_mem (off off' : Fin 2 → ℕ) (inb : ∀ a, off a + S1x64.size a ≤ S3x64.size a)
    (inb' : ∀ a, off' a + S1x64.size a ≤ S3x64.size a) (hne : off 0 ≠ off' 0)
    (j : (Rect.unit (s := S3x64) off' S1x64.size inb').toLoadRect.shape.Idx) :
    (Rect.unit (s := S3x64) off' S1x64.size inb').toLoadRect.idx j ∉ (Rect.unit (s := S3x64) off S1x64.size inb).set := by
  intro h
  have h0 := (Rect.mem_set_unit.mp h) 0
  have hj : (j 0).val < 1 := (j 0).isLt
  have e : (((Rect.unit (s := S3x64) off' S1x64.size inb').toLoadRect.idx j) 0 : ℕ) = off' 0 + 1 * (j 0).val := rfl
  have hs : S1x64.size 0 = 1 := rfl
  rw [e, hs] at h0
  omega

/-- Entry `[r, b]` lies in row `r`. -/
theorem row_mem (off : Fin 2 → ℕ) (inb : ∀ a, off a + S1x64.size a ≤ S3x64.size a) (r : Fin 3) (b : Fin 64)
    (h0 : off 0 = r.val) (h1 : off 1 = 0) : ix2 r b ∈ (Rect.unit (s := S3x64) off S1x64.size inb).set := by
  rw [Rect.mem_set_unit]
  intro a
  match a with
  | ⟨0, _⟩ => show off 0 ≤ r.val ∧ r.val < off 0 + 1; omega
  | ⟨1, _⟩ => show off 1 ≤ b.val ∧ b.val < off 1 + 64; have := b.isLt; omega

/-- First tile of an image: the scratch ends at the block's counts. -/
theorem soutA_apply (c : Dev nD) (i : grid0.Coords) (arg2 : Memref sig .tc .vmem S1x3x256x1024 .f32) (harg2 : arg2.IsWhole)
    (arg3 : Memref sig .tc .vmem S1x3x64 .f32) (harg3 : arg3.IsWhole) (arg4 : Memref sig .tc .vmem S3x64 .f32) (harg4 : arg4.IsWhole) (hc0 : cond0_0 i) (hc1 : ¬cond0_1 i)
    (x0 : Vec Ideal S1x3x256x1024 .f32) (ch : Fin 3) (b : Fin 64) :
    sout0_A_0 (F := Ideal) c i arg2 harg2 arg3 harg3 arg4 harg4 hc0 hc1 x0 (ix2 ch b) = blockCount x0 ch b := by
  unfold sout0_A_0
  rw [View.read_writes_eq_canon _ _ _ (scover0_A_0 c i arg2 harg2 arg3 harg3 arg4 harg4 hc0 hc1 x0)]
  unfold kernelRun0_A
  dsimp only
  sl_unfold_words
  show View.canon (Val := Elt Ideal) (e := .f32) ([_, _, _] ++ [_]) (ix2 ch b) = blockCount x0 ch b
  refine (View.canon_append_of_pieces (fun y : S3x64.Idx => blockCount x0 (chOf y) (binOf y)) _ _ ?_ (ix2 ch b) ?_).trans rfl
  · intro p hp
    simp only [List.mem_cons, List.mem_nil_iff, or_false] at hp
    rcases hp with rfl | rfl | rfl
    · intro x
      dsimp only
      rw [pay1_apply, pay12_apply, row_ch ![2, 0] _ 2 rfl x, trips_lit]
      refine (congrArg (fun z => z + _) (readback_zero arg4.view _ pay3_apply _ [_, _] _ ?_ x)).trans ?_
      · intro p hp j
        simp only [List.mem_cons, List.mem_nil_iff, or_false] at hp
        rcases hp with rfl | rfl
        · exact row_not_mem ![1, 0] ![2, 0] Cert.KernelIdeal.Gen.inb_S3x64_S1x64_1_0 Cert.KernelIdeal.Gen.inb_S3x64_S1x64_2_0 (by decide) j
        · exact row_not_mem ![0, 0] ![2, 0] Cert.KernelIdeal.Gen.inb_S3x64_S1x64_0_0 Cert.KernelIdeal.Gen.inb_S3x64_S1x64_2_0 (by decide) j
      · rw [zero_add]
        exact row_tot ![2, 0] _ rfl
          (st_k0_t3 (F := Ideal) Variants.none c none i arg2 harg2 arg3 harg3 arg4 harg4 (harg2.unread x0) k0_pay10 32)
          (fun b => blockCount x0 2 b)
          (fun b => loop3_apply c i arg2 harg2 arg3 harg3 arg4 harg4 x0 _ pay10_apply b) x
    · intro x
      dsimp only
      rw [pay9_apply, row_ch ![1, 0] _ 1 rfl x, trips_lit]
      refine (congrArg (fun z => z + _) (readback_zero arg4.view _ pay3_apply _ [_] _ ?_ x)).trans ?_
      · intro p hp j
        simp only [List.mem_cons, List.mem_nil_iff, or_false] at hp
        subst hp
        exact row_not_mem ![0, 0] ![1, 0] Cert.KernelIdeal.Gen.inb_S3x64_S1x64_0_0 Cert.KernelIdeal.Gen.inb_S3x64_S1x64_1_0 (by decide) j
      · rw [zero_add]
        exact row_tot ![1, 0] _ rfl
          (st_k0_t2 (F := Ideal) Variants.none c none i arg2 harg2 arg3 harg3 arg4 harg4 (harg2.unread x0) k0_pay7 32)
          (fun b => blockCount x0 1 b)
          (fun b => loop2_apply c i arg2 harg2 arg3 harg3 arg4 harg4 x0 _ pay7_apply b) x
    · intro x
      dsimp only
      rw [pay6_apply, row_ch ![0, 0] _ 0 rfl x, trips_lit]
      refine (congrArg (fun z => z + _) (readback_zero arg4.view _ pay3_apply _ [] _ ?_ x)).trans ?_
      · intro p hp j
        simp only [List.mem_cons, List.mem_nil_iff, or_false, List.not_mem_nil] at hp
      · rw [zero_add]
        exact row_tot ![0, 0] _ rfl
          (st_k0_t1 (F := Ideal) Variants.none c none i arg2 harg2 arg3 harg3 arg4 harg4 (harg2.unread x0) k0_pay4 32)
          (fun b => blockCount x0 0 b)
          (fun b => loop1_apply c i arg2 harg2 arg3 harg3 arg4 harg4 x0 _ pay4_apply b) x
  · fin_cases ch
    · exact ⟨_, List.mem_cons_of_mem _ (List.mem_cons_of_mem _ (List.mem_singleton_self _)), row_mem ![0, 0] Cert.KernelIdeal.Gen.inb_S3x64_S1x64_0_0 0 b rfl rfl⟩
    · exact ⟨_, List.mem_cons_of_mem _ (List.mem_cons_self ..), row_mem ![1, 0] Cert.KernelIdeal.Gen.inb_S3x64_S1x64_1_0 1 b rfl rfl⟩
    · exact ⟨_, List.mem_cons_self .., row_mem ![2, 0] Cert.KernelIdeal.Gen.inb_S3x64_S1x64_2_0 2 b rfl rfl⟩

/-- A middle tile: the scratch gains the block's counts. -/
theorem soutB_apply (c : Dev nD) (i : grid0.Coords) (arg2 : Memref sig .tc .vmem S1x3x256x1024 .f32) (harg2 : arg2.IsWhole)
    (arg3 : Memref sig .tc .vmem S1x3x64 .f32) (harg3 : arg3.IsWhole) (arg4 : Memref sig .tc .vmem S3x64 .f32) (harg4 : arg4.IsWhole) (hc0 : ¬cond0_0 i) (hc1 : ¬cond0_1 i)
    (x0 : Vec Ideal S1x3x256x1024 .f32) (xs0 : Vec Ideal S3x64 .f32) (ch : Fin 3) (b : Fin 64) :
    sout0_B_0 (F := Ideal) c i arg2 harg2 arg3 harg3 arg4 harg4 hc0 hc1 x0 xs0 (ix2 ch b)
      = xs0 (ix2 ch b) + blockCount x0 ch b := by
  unfold sout0_B_0
  rw [View.read_writes_eq_canon _ _ _ (scover0_B_0 c i arg2 harg2 arg3 harg3 arg4 harg4 hc0 hc1 x0 xs0)]
  refine (View.canon_apply_of_pieces (fun y : S3x64.Idx => xs0 y + blockCount x0 (chOf y) (binOf y)) _ ?_ (ix2 ch b)
    (scover0_B_0 c i arg2 harg2 arg3 harg3 arg4 harg4 hc0 hc1 x0 xs0 (ix2 ch b))).trans rfl
  unfold kernelRun0_B
  dsimp only
  sl_unfold_words
  intro p hp
  simp only [List.mem_cons, List.mem_nil_iff, or_false] at hp
  rcases hp with rfl | rfl | rfl
  · intro x
    dsimp only
    rw [pay1_apply, pay12_apply, row_read, row_ch ![2, 0] _ 2 rfl x, trips_lit]
    exact congrArg (fun z => _ + z) (row_tot ![2, 0] _ rfl
      (st_k0_t3 (F := Ideal) Variants.none c none i arg2 harg2 arg3 harg3 arg4 harg4 (harg2.unread x0) k0_pay10 32)
      (fun b => blockCount x0 2 b)
      (fun b => loop3_apply c i arg2 harg2 arg3 harg3 arg4 harg4 x0 _ pay10_apply b) x)
  · intro x
    dsimp only
    rw [pay9_apply, row_read, row_ch ![1, 0] _ 1 rfl x, trips_lit]
    exact congrArg (fun z => _ + z) (row_tot ![1, 0] _ rfl
      (st_k0_t2 (F := Ideal) Variants.none c none i arg2 harg2 arg3 harg3 arg4 harg4 (harg2.unread x0) k0_pay7 32)
      (fun b => blockCount x0 1 b)
      (fun b => loop2_apply c i arg2 harg2 arg3 harg3 arg4 harg4 x0 _ pay7_apply b) x)
  · intro x
    dsimp only
    rw [pay6_apply, row_read, row_ch ![0, 0] _ 0 rfl x, trips_lit]
    exact congrArg (fun z => _ + z) (row_tot ![0, 0] _ rfl
      (st_k0_t1 (F := Ideal) Variants.none c none i arg2 harg2 arg3 harg3 arg4 harg4 (harg2.unread x0) k0_pay4 32)
      (fun b => blockCount x0 0 b)
      (fun b => loop1_apply c i arg2 harg2 arg3 harg3 arg4 harg4 x0 _ pay4_apply b) x)

/-- The last tile: the scratch gains the block's counts, -/
theorem soutC_apply (c : Dev nD) (i : grid0.Coords) (arg2 : Memref sig .tc .vmem S1x3x256x1024 .f32) (harg2 : arg2.IsWhole)
    (arg3 : Memref sig .tc .vmem S1x3x64 .f32) (harg3 : arg3.IsWhole) (arg4 : Memref sig .tc .vmem S3x64 .f32) (harg4 : arg4.IsWhole) (hc0 : ¬cond0_0 i) (hc1 : cond0_1 i)
    (x0 : Vec Ideal S1x3x256x1024 .f32) (xs0 : Vec Ideal S3x64 .f32) (ch : Fin 3) (b : Fin 64) :
    sout0_C_0 (F := Ideal) c i arg2 harg2 arg3 harg3 arg4 harg4 hc0 hc1 x0 xs0 (ix2 ch b)
      = xs0 (ix2 ch b) + blockCount x0 ch b := by
  unfold sout0_C_0
  rw [View.read_writes_eq_canon _ _ _ (scover0_C_0 c i arg2 harg2 arg3 harg3 arg4 harg4 hc0 hc1 x0 xs0)]
  refine (View.canon_apply_of_pieces (fun y : S3x64.Idx => xs0 y + blockCount x0 (chOf y) (binOf y)) _ ?_ (ix2 ch b)
    (scover0_C_0 c i arg2 harg2 arg3 harg3 arg4 harg4 hc0 hc1 x0 xs0 (ix2 ch b))).trans rfl
  unfold kernelRun0_C
  dsimp only
  sl_unfold_words
  intro p hp
  simp only [List.mem_cons, List.mem_nil_iff, or_false] at hp
  rcases hp with rfl | rfl | rfl
  · intro x
    dsimp only
    rw [pay1_apply, pay12_apply, row_read, row_ch ![2, 0] _ 2 rfl x, trips_lit]
    exact congrArg (fun z => _ + z) (row_tot ![2, 0] _ rfl
      (st_k0_t3 (F := Ideal) Variants.none c none i arg2 harg2 arg3 harg3 arg4 harg4 (harg2.unread x0) k0_pay10 32)
      (fun b => blockCount x0 2 b)
      (fun b => loop3_apply c i arg2 harg2 arg3 harg3 arg4 harg4 x0 _ pay10_apply b) x)
  · intro x
    dsimp only
    rw [pay9_apply, row_read, row_ch ![1, 0] _ 1 rfl x, trips_lit]
    exact congrArg (fun z => _ + z) (row_tot ![1, 0] _ rfl
      (st_k0_t2 (F := Ideal) Variants.none c none i arg2 harg2 arg3 harg3 arg4 harg4 (harg2.unread x0) k0_pay7 32)
      (fun b => blockCount x0 1 b)
      (fun b => loop2_apply c i arg2 harg2 arg3 harg3 arg4 harg4 x0 _ pay7_apply b) x)
  · intro x
    dsimp only
    rw [pay6_apply, row_read, row_ch ![0, 0] _ 0 rfl x, trips_lit]
    exact congrArg (fun z => _ + z) (row_tot ![0, 0] _ rfl
      (st_k0_t1 (F := Ideal) Variants.none c none i arg2 harg2 arg3 harg3 arg4 harg4 (harg2.unread x0) k0_pay4 32)
      (fun b => blockCount x0 0 b)
      (fun b => loop1_apply c i arg2 harg2 arg3 harg3 arg4 harg4 x0 _ pay4_apply b) x)

/-- and the output block is that scratch: entry `[0, ch, b]` is scratch entry `[ch, b]`. -/
theorem outC_apply (c : Dev nD) (i : grid0.Coords) (arg2 : Memref sig .tc .vmem S1x3x256x1024 .f32) (harg2 : arg2.IsWhole)
    (arg3 : Memref sig .tc .vmem S1x3x64 .f32) (harg3 : arg3.IsWhole) (arg4 : Memref sig .tc .vmem S3x64 .f32) (harg4 : arg4.IsWhole) (hc0 : ¬cond0_0 i) (hc1 : cond0_1 i)
    (x0 : Vec Ideal S1x3x256x1024 .f32) (xs0 : Vec Ideal S3x64 .f32) (ch : Fin 3) (b : Fin 64) :
    out0_C_1 (F := Ideal) c i arg2 harg2 arg3 harg3 arg4 harg4 hc0 hc1 x0 xs0 (ix3 (0 : Fin 1) ch b)
      = xs0 (ix2 ch b) + blockCount x0 ch b := by
  rw [← soutC_apply c i arg2 harg2 arg3 harg3 arg4 harg4 hc0 hc1 x0 xs0 ch b]
  unfold out0_C_1 sout0_C_0
  rw [View.read_writes_eq_canon _ _ _ (cover0_C_1 c i arg2 harg2 arg3 harg3 arg4 harg4 hc0 hc1 x0 xs0),
    View.read_writes_eq_canon _ _ _ (scover0_C_0 c i arg2 harg2 arg3 harg3 arg4 harg4 hc0 hc1 x0 xs0)]
  unfold kernelRun0_C
  dsimp only
  sl_unfold_words
  rw [View.canon_unit_zero hz3, pay2_apply]
  refine (congrFun (View.readCov_eq_canon_ld arg4.view _ (Rect.unit (s := S3x64) ![0, 0] ![3, 64] _) ?_) (ix2 ch b)).trans ?_
  · intro y
    obtain ⟨r, l, rfl⟩ : ∃ (r : Fin 3) (l : Fin 64), y = ix2 r l := ⟨y 0, y 1, eq_ix2 y⟩
    fin_cases r
    · exact ⟨_, List.mem_cons_of_mem _ (List.mem_cons_of_mem _ (List.mem_singleton_self _)), row_mem ![0, 0] Cert.KernelIdeal.Gen.inb_S3x64_S1x64_0_0 0 l rfl rfl⟩
    · exact ⟨_, List.mem_cons_of_mem _ (List.mem_cons_self ..), row_mem ![1, 0] Cert.KernelIdeal.Gen.inb_S3x64_S1x64_1_0 1 l rfl rfl⟩
    · exact ⟨_, List.mem_cons_self .., row_mem ![2, 0] Cert.KernelIdeal.Gen.inb_S3x64_S1x64_2_0 2 l rfl rfl⟩
  · rw [View.ld_unit_zero (S := S3x64) hz2]

end Cert.Hist

end
-- ==== Proof.Accum.lean ====
/-
  The accumulation over the grid, and the histogram array the region leaves.

  The grid has 16 · 4 points, point `t` being row-tile `t % 4` of image `t / 4`; the block fetched there is that
  tile of the image. The scratch is zeroed at a tile 0 and gains each tile's block counts, so after point `t` it
  holds the counts of tiles `0 … t % 4` of image `t / 4`; at a tile 3 that is the image's whole count, which the body
  copies to the output block, and the pipeline writes that block back to rows `[t / 4, ·, ·]` of the output array.
  Only the tile-3 points write back, and their blocks tile the array: it ends at the histogram of the image array.
-/
import proofs.«176124_j50113678410581_1_alg».proof.Proof.Gen.KernelIdeal.Frame
import proofs.«176124_j50113678410581_1_alg».proof.Proof.Spec
import proofs.«176124_j50113678410581_1_alg».proof.Proof.Counting
import proofs.«176124_j50113678410581_1_alg».proof.Proof.Payload
import proofs.«176124_j50113678410581_1_alg».proof.Proof.Trips
import proofs.«176124_j50113678410581_1_alg».proof.Proof.Pieces
import Idealize.ShloMosaic.Lib.ValueIdx
import Idealize.ShloMosaic.Lib.Pipeline.Value

set_option maxRecDepth 16384

noncomputable section

open scoped BigOperators

namespace Cert.Hist

open Idealize.ShloMosaic Idealize.ShloMosaic.ValueIdx Idealize.ShloMosaic.TcCoe Idealize.SL.Sem
open Idealize.ShloMosaic.Pipeline (Dat Cfg Window)
open Cert.KernelIdeal Cert.KernelIdeal.Gen

variable (m : (ℓ : Loc nD τ sig) → Buf (Elt Ideal) ℓ)

/-- The image array as the region finds it. -/
abbrev img (c : Dev nD) : Vec Ideal S16x3x1024x1024 .f32 := V m c main_arg0

/-- The input block fetched at point `t`, at its literal type. -/
abbrev xblk (c : Dev nD) (t : Fin cfg0.N) : Vec Ideal S1x3x256x1024 .f32 := iblk m c 0 t

/-- Point `t`'s image and row-tile. -/
def imgOf (t : Fin cfg0.N) : Fin 16 := ⟨t.val / 4, by have := lt_of_lt_of_eq t.isLt (N_0 : cfg0.N = 64); omega⟩
def tileIx (t : Fin cfg0.N) : Fin 4 := ⟨t.val % 4, Nat.mod_lt _ (by norm_num)⟩

/-- Row-tile `τ` of image `n`: its rows `256·τ … 256·τ + 255`, all channels and lanes. -/
def tileOf (x : Vec Ideal S16x3x1024x1024 .f32) (n : Fin 16) (τ : Fin 4) : Vec Ideal S1x3x256x1024 .f32 :=
  fun y => x (ix4 n (⟨(y 1).val, (y 1).isLt⟩ : Fin 3)
    (⟨256 * τ.val + (y 2).val, by have : (y 2).val < 256 := (y 2).isLt; have := τ.isLt; omega⟩ : Fin 1024)
    (⟨(y 3).val, (y 3).isLt⟩ : Fin 1024))

/-- The input window's block index at point `t`, axis by axis: image `t / 4`, all channels, row-tile `t % 4`, all lanes. -/
private theorem index0_eq : ∀ t : Fin cfg0.N, win0_0.index t (0 : Fin 4) = t.val / 4 ∧ win0_0.index t (1 : Fin 4) = 0
    ∧ win0_0.index t (2 : Fin 4) = t.val % 4 ∧ win0_0.index t (3 : Fin 4) = 0 :=
  (by decide +kernel : ∀ t : Fin grid0.N, win0_0.index t (0 : Fin 4) = t.val / 4 ∧ win0_0.index t (1 : Fin 4) = 0
    ∧ win0_0.index t (2 : Fin 4) = t.val % 4 ∧ win0_0.index t (3 : Fin 4) = 0)

/-- The block fetched at point `t` is tile `t % 4` of image `t / 4`. -/
theorem xblk_eq (c : Dev nD) (t : Fin cfg0.N) : xblk m c t = tileOf (img m c) (imgOf t) (tileIx t) := by
  funext y
  show V m c main_arg0 (((cfg0.win 0).blk t).view.emb y) = V m c main_arg0 _
  refine congrArg (V m c main_arg0) ?_
  obtain ⟨e0, e1, e2, e3⟩ := index0_eq t
  funext a
  apply Fin.ext
  match a with
  | ⟨0, _⟩ =>
    show win0_0.index t (0 : Fin 4) * 1 + 1 * (y 0).val = t.val / 4
    have hy : (y 0).val < 1 := (y 0).isLt
    omega
  | ⟨1, _⟩ =>
    show win0_0.index t (1 : Fin 4) * 3 + 1 * (y 1).val = (y 1).val
    omega
  | ⟨2, _⟩ =>
    show win0_0.index t (2 : Fin 4) * 256 + 1 * (y 2).val = 256 * (t.val % 4) + (y 2).val
    omega
  | ⟨3, _⟩ =>
    show win0_0.index t (3 : Fin 4) * 1024 + 1 * (y 3).val = (y 3).val
    omega

/-- An image channel's count of a bin is the sum of its four tiles' block counts. -/
theorem count_tiles (x : Vec Ideal S16x3x1024x1024 .f32) (n : Fin 16) (ch : Fin 3) (b : Fin 64) :
    count x n ch b = ∑ τ : Fin 4, blockCount (tileOf x n τ) ch b := by
  unfold count
  refine (sum_rows _).trans ?_
  refine Finset.sum_congr rfl fun τ _ => ?_
  unfold blockCount
  refine Finset.sum_congr rfl fun k _ => ?_
  unfold chunkCount
  refine Finset.sum_congr rfl fun r _ => ?_
  refine Finset.sum_congr rfl fun w _ => ?_
  refine congrArg (fun z => hot (bin z) b) ?_
  show x (ix4 n ch (rowOf τ k r) w) = x _
  refine congrArg x ?_
  funext a
  match a with
  | ⟨0, _⟩ => rfl
  | ⟨1, _⟩ => rfl
  | ⟨2, _⟩ =>
    apply Fin.ext
    show 256 * τ.val + 8 * k.val + r.val = 256 * τ.val + (8 * k.val + r.val)
    omega
  | ⟨3, _⟩ => rfl

/-- Tile `τ`'s block count as a function of a natural number (zero past the last tile), for sums over ranges. -/
def tileCountN (x : Vec Ideal S16x3x1024x1024 .f32) (n : Fin 16) (ch : Fin 3) (b : Fin 64) (τ : ℕ) : EReal :=
  if h : τ < 4 then blockCount (tileOf x n ⟨τ, h⟩) ch b else 0

/-- The term of the range sum at a point's own tile is its block's count. -/
private theorem tileCountN_at (c : Dev nD) (t : Fin cfg0.N) (ch : Fin 3) (b : Fin 64) :
    tileCountN (img m c) (imgOf t) ch b (t.val % 4) = blockCount (xblk m c t) ch b := by
  unfold tileCountN
  rw [dif_pos (Nat.mod_lt _ (by norm_num)), xblk_eq]
  rfl

/-- The invariant over the positions as natural numbers: a first tile starts the sum, every other tile adds its term
    to what the position before left, which is of the same image. -/
private theorem scratch_inv_nat (c : Dev nD) (n : ℕ) : ∀ (hn : n < cfg0.N) (ch : Fin 3) (b : Fin 64),
    (outsAt0 (F := Ideal) m c n hn).2 (ix2 ch b)
      = ∑ τ ∈ Finset.range (n % 4 + 1), tileCountN (img m c) (imgOf ⟨n, hn⟩) ch b τ := by
  induction n using Nat.strong_induction_on with
  | _ n ih =>
    intro hn ch b
    have hN : n < 64 := lt_of_lt_of_eq hn (N_0 : cfg0.N = 64)
    rw [Finset.sum_range_succ, tileCountN_at m c ⟨n, hn⟩ ch b]
    by_cases h0 : n % 4 = 0
    · have h1 : ¬n % 4 = 3 := by omega
      rw [outsAt0_A m c ⟨n, hn⟩ h0 h1]
      dsimp only
      refine (soutA_apply c (grid0.coords ⟨n, hn⟩) (ms0_0 ⟨n, hn⟩) (hs0_0 ⟨n, hn⟩) (ms0_1 ⟨n, hn⟩) (hs0_1 ⟨n, hn⟩)
        scM0_0 (Memref.isWhole_whole _) ((hcond0_0 ⟨n, hn⟩).mpr h0) (fun h => h1 ((hcond0_1 ⟨n, hn⟩).mp h))
        (iblk m c 0 ⟨n, hn⟩) ch b).trans ?_
      rw [h0, Finset.sum_range_zero, zero_add]
    · have hprev : n - 1 < cfg0.N := Nat.lt_of_le_of_lt (Nat.sub_le _ _) hn
      have hk : (n - 1) % 4 + 1 = n % 4 := by omega
      have himg : imgOf ⟨n - 1, hprev⟩ = imgOf ⟨n, hn⟩ := by
        apply Fin.ext
        show (n - 1) / 4 = n / 4
        omega
      have hih := ih (n - 1) (by omega) hprev ch b
      rw [hk, himg] at hih
      by_cases h1 : n % 4 = 3
      · rw [outsAt0_C m c ⟨n, hn⟩ h0 h1]
        dsimp only
        refine (soutC_apply c (grid0.coords ⟨n, hn⟩) (ms0_0 ⟨n, hn⟩) (hs0_0 ⟨n, hn⟩) (ms0_1 ⟨n, hn⟩) (hs0_1 ⟨n, hn⟩)
          scM0_0 (Memref.isWhole_whole _) (fun h => h0 ((hcond0_0 ⟨n, hn⟩).mp h)) ((hcond0_1 ⟨n, hn⟩).mpr h1)
          (iblk m c 0 ⟨n, hn⟩) (outsAt0 (F := Ideal) m c (n - 1) hprev).2 ch b).trans ?_
        rw [hih]
      · rw [outsAt0_B m c ⟨n, hn⟩ h0 h1]
        dsimp only
        refine (soutB_apply c (grid0.coords ⟨n, hn⟩) (ms0_0 ⟨n, hn⟩) (hs0_0 ⟨n, hn⟩) (ms0_1 ⟨n, hn⟩) (hs0_1 ⟨n, hn⟩)
          scM0_0 (Memref.isWhole_whole _) (fun h => h0 ((hcond0_0 ⟨n, hn⟩).mp h)) (fun h => h1 ((hcond0_1 ⟨n, hn⟩).mp h))
          (iblk m c 0 ⟨n, hn⟩) (outsAt0 (F := Ideal) m c (n - 1) hprev).2 ch b).trans ?_
        rw [hih]

/-- After point `t` the scratch holds the counts of tiles `0 … t % 4` of image `t / 4`. -/
theorem scratch_inv (c : Dev nD) (t : Fin cfg0.N) (ch : Fin 3) (b : Fin 64) :
    (outsAt0 (F := Ideal) m c t.val t.isLt).2 (ix2 ch b)
      = ∑ τ ∈ Finset.range (t.val % 4 + 1), tileCountN (img m c) (imgOf t) ch b τ :=
  scratch_inv_nat m c t.val t.isLt ch b

/-- At a last tile the output block holds the image's counts. -/
theorem out_last (c : Dev nD) (t : Fin cfg0.N) (h3 : t.val % 4 = 3) (ch : Fin 3) (b : Fin 64) :
    (outsAt0 (F := Ideal) m c t.val t.isLt).1 (ix3 (0 : Fin 1) ch b) = count (img m c) (imgOf t) ch b := by
  have hN : t.val < 64 := lt_of_lt_of_eq t.isLt (N_0 : cfg0.N = 64)
  have h0 : ¬t.val % 4 = 0 := by omega
  have hprev : t.val - 1 < cfg0.N := Nat.lt_of_le_of_lt (Nat.sub_le _ _) t.isLt
  rw [outsAt0_C m c t h0 h3]
  dsimp only
  refine (outC_apply c (grid0.coords t) (ms0_0 t) (hs0_0 t) (ms0_1 t) (hs0_1 t)
    scM0_0 (Memref.isWhole_whole _) (fun h => h0 ((hcond0_0 t).mp h)) ((hcond0_1 t).mpr h3)
    (iblk m c 0 t) (outsAt0 (F := Ideal) m c (t.val - 1) hprev).2 ch b).trans ?_
  have hk : (t.val - 1) % 4 + 1 = 3 := by omega
  have himg : imgOf ⟨t.val - 1, hprev⟩ = imgOf t := by
    apply Fin.ext
    show (t.val - 1) / 4 = t.val / 4
    omega
  have hih : (outsAt0 (F := Ideal) m c (t.val - 1) hprev).2 (ix2 ch b)
      = ∑ τ ∈ Finset.range ((t.val - 1) % 4 + 1), tileCountN (img m c) (imgOf ⟨t.val - 1, hprev⟩) ch b τ :=
    scratch_inv m c ⟨t.val - 1, hprev⟩ ch b
  rw [hk, himg] at hih
  rw [hih, count_tiles, Fin.sum_univ_four, Finset.sum_range_succ, Finset.sum_range_succ, Finset.sum_range_succ,
    Finset.sum_range_zero, zero_add]
  have ht := tileCountN_at m c t ch b
  rw [h3] at ht
  rw [← ht]
  rfl

/-- The output window's block index at point `t`: image `t / 4`, the one block of channels and bins. -/
private theorem index1_eq : ∀ t : Fin cfg0.N, win0_1.index t (0 : Fin 3) = t.val / 4 ∧ win0_1.index t (1 : Fin 3) = 0
    ∧ win0_1.index t (2 : Fin 3) = 0 :=
  (by decide +kernel : ∀ t : Fin grid0.N, win0_1.index t (0 : Fin 3) = t.val / 4 ∧ win0_1.index t (1 : Fin 3) = 0
    ∧ win0_1.index t (2 : Fin 3) = 0)

/-- The output block is written back exactly at the last tiles. -/
private theorem flush1_iff : ∀ t : Fin cfg0.N, (cfg0.win 1).flush t = true ↔ t.val % 4 = 3 :=
  (by decide +kernel : ∀ t : Fin grid0.N, win0_1.flush t = true ↔ t.val % 4 = 3)

/-- A block of an array of counts, read at a block index, is the array at the index under it. -/
private theorem read_blk1 (G : S16x3x64.Idx → EReal) (t : Fin cfg0.N) (j : ((cfg0.win 1).xblock (grid0.coords t)).Idx) :
    ((cfg0.win 1).blk t).view.read (Elt Ideal) G j = G (((cfg0.win 1).blk t).view.emb j) := rfl

/-- What is written back of a staging buffer's contents, read at an index, is the contents there. -/
private theorem cut1_apply (X : Vec Ideal S1x3x64 .f32) (t : Fin cfg0.N) (j : ((cfg0.win 1).xblock (grid0.coords t)).Idx) :
    (cfg0.win 1).cut (grid0.coords t) X j = X ((cfg0.win 1).xinj (grid0.coords t) j) := rfl

/-- The histogram at an index is the count at its coordinates. -/
private theorem hist_apply (x : (⟨4, ![16, 3, 1024, 1024]⟩ : Shape).Idx → EReal) (i : (⟨3, ![16, 3, 64]⟩ : Shape).Idx) :
    hist x i = count x (i 0) (i 1) (i 2) := rfl

/-- What a writing point writes back is its block of the histogram of the image array. -/
theorem flushed1_eq (c : Dev nD) (t : Fin cfg0.N) (hf : (cfg0.win 1).flush t = true) :
    (dats (F := Ideal) m 0 c).flushed 1 t = ((cfg0.win 1).blk t).view.read (Elt Ideal) (hist (img m c)) := by
  have h3 : t.val % 4 = 3 := (flush1_iff t).mp hf
  obtain ⟨e0, e1, e2⟩ := index1_eq t
  show (cfg0.win 1).cut (grid0.coords t) ((dats (F := Ideal) m 0 c).after 1 t) = _
  rw [after0_1]
  funext j
  have hj0 : (j 0).val < 1 := (j 0).isLt
  have hj1 : (j 1).val < 3 := (j 1).isLt
  have hj2 : (j 2).val < 64 := (j 2).isLt
  have hx : (cfg0.win 1).xinj (grid0.coords t) j = ix3 (0 : Fin 1) (⟨(j 1).val, hj1⟩ : Fin 3) (⟨(j 2).val, hj2⟩ : Fin 64) := by
    funext a
    apply Fin.ext
    match a with
    | ⟨0, _⟩ =>
      show (j 0).val = 0
      omega
    | ⟨1, _⟩ => rfl
    | ⟨2, _⟩ => rfl
  refine (cut1_apply (outsAt0 (F := Ideal) m c t.val t.isLt).1 t j).trans ?_
  refine Eq.trans ?_ (read_blk1 (hist (img m c)) t j).symm
  rw [hx]
  refine (out_last m c t h3 _ _).trans ?_
  have hE0 : (((cfg0.win 1).blk t).view.emb j) 0 = imgOf t := Fin.ext (by
    show win0_1.index t (0 : Fin 3) * 1 + 1 * (j 0).val = t.val / 4
    omega)
  have hE1 : (((cfg0.win 1).blk t).view.emb j) 1 = (⟨(j 1).val, hj1⟩ : Fin 3) := Fin.ext (by
    show win0_1.index t (1 : Fin 3) * 3 + 1 * (j 1).val = (j 1).val
    omega)
  have hE2 : (((cfg0.win 1).blk t).view.emb j) 2 = (⟨(j 2).val, hj2⟩ : Fin 64) := Fin.ext (by
    show win0_1.index t (2 : Fin 3) * 64 + 1 * (j 2).val = (j 2).val
    omega)
  rw [hist_apply, hE0, hE1, hE2]

/-- An index of the output array is in point `t`'s block iff each coordinate is in the block's range on its axis. -/
private theorem mem_blk1 (t : Fin cfg0.N) (i : S16x3x64.Idx) :
    i ∈ ((cfg0.win 1).blk t).view.set ↔ ∀ a : Fin 3, win0_1.index t a * S1x3x64.size a ≤ (i a).val
      ∧ (i a).val < win0_1.index t a * S1x3x64.size a + S1x3x64.size a := by
  show i ∈ ((View.whole main_v0).slice (win0_1.rect t)).set ↔ _
  rw [View.set_slice_whole, Rect.mem_set_unit]
  exact Iff.rfl

/-- The output array after the region: the histogram of the image array. -/
theorem final1 (c : Dev nD) : (dats (F := Ideal) m 0 c).arrAt 1 cfg0.N = hist (img m c) := by
  refine (dats (F := Ideal) m 0 c).arrAt_eq_of_cover 1 (hist (img m c)) (fun t hf => flushed1_eq m c t hf) ?_
  intro i
  revert i
  show ∀ i : S16x3x64.Idx, ∃ t : Fin cfg0.N, (cfg0.win 1).flush t = true ∧ i ∈ ((cfg0.win 1).blk t).view.set
  intro i
  have hi0 : (i 0).val < 16 := (i 0).isLt
  have hi1 : (i 1).val < 3 := (i 1).isLt
  have hi2 : (i 2).val < 64 := (i 2).isLt
  have hlt : 4 * (i 0).val + 3 < cfg0.N :=
    lt_of_lt_of_eq (by omega : 4 * (i 0).val + 3 < 64) (N_0 : cfg0.N = 64).symm
  refine ⟨⟨4 * (i 0).val + 3, hlt⟩, (flush1_iff _).mpr (by show (4 * (i 0).val + 3) % 4 = 3; omega), ?_⟩
  obtain ⟨e0, e1, e2⟩ := index1_eq ⟨4 * (i 0).val + 3, hlt⟩
  have e0' : win0_1.index ⟨4 * (i 0).val + 3, hlt⟩ (0 : Fin 3) = (i 0).val := by
    rw [e0]
    show (4 * (i 0).val + 3) / 4 = (i 0).val
    omega
  rw [mem_blk1]
  intro a
  match a with
  | ⟨0, _⟩ =>
    show win0_1.index ⟨4 * (i 0).val + 3, hlt⟩ (0 : Fin 3) * 1 ≤ (i 0).val
      ∧ (i 0).val < win0_1.index ⟨4 * (i 0).val + 3, hlt⟩ (0 : Fin 3) * 1 + 1
    omega
  | ⟨1, _⟩ =>
    show win0_1.index ⟨4 * (i 0).val + 3, hlt⟩ (1 : Fin 3) * 3 ≤ (i 1).val
      ∧ (i 1).val < win0_1.index ⟨4 * (i 0).val + 3, hlt⟩ (1 : Fin 3) * 3 + 3
    omega
  | ⟨2, _⟩ =>
    show win0_1.index ⟨4 * (i 0).val + 3, hlt⟩ (2 : Fin 3) * 64 ≤ (i 2).val
      ∧ (i 2).val < win0_1.index ⟨4 * (i 0).val + 3, hlt⟩ (2 : Fin 3) * 64 + 64
    omega

end Cert.Hist

end
-- ==== Proof.KernelRun.lean ====
/-
  The kernel's run, with its result named: the layers after the histogram applied to the feature matrix of the image.

  The generated frame run leaves the output window's array at what the proof data compute and every other buffer as
  the host operations after the region leave it. The output array is the histogram of the image (the accumulation over
  the grid), its reshape is the feature matrix, and the host operations are the common layers; the arguments are unchanged.
-/
import proofs.«176124_j50113678410581_1_alg».proof.Proof.Gen.KernelIdeal.Frame
import proofs.«176124_j50113678410581_1_alg».proof.Proof.Spec
import proofs.«176124_j50113678410581_1_alg».proof.Proof.Accum
import proofs.«176124_j50113678410581_1_alg».proof.Proof.Tail

set_option maxRecDepth 16384

noncomputable section

namespace Cert.Hist

open Idealize.ShloMosaic Idealize.ShloMosaic.TcCoe Idealize.SL.Sem
open Cert.KernelIdeal Cert.KernelIdeal.Gen

/-- Every weakly fair execution of the idealized kernel terminates with its result at the layers of the image's feature
    matrix and the parameter vector, the arguments unchanged. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v26)
          = mlp (feat (m ((c.tc : Thread nD τ).loc main_arg0))) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v26 (Pipeline.mem_restRefs_of main_v26 (by decide) (by decide))).trans
        ((kernel_tail m c).trans (by rw [final1 m c, hist_feat]; rfl)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.Hist

end
-- ==== Proof.lean ====
/-
  A per-image, per-channel 64-bin histogram feeding a small network: the kernel counts by comparing every pixel's bin
  with each bin id and summing the matches, tile by tile and chunk by chunk, into a scratch it carries over an image's
  four row-tiles; the reference scatters a one into slot `bin + 64 · (3 · image + channel)` for every pixel. Over the
  extended reals both leave, for every image, channel and bin, the number of the channel's pixels in that bin — every
  summand is zero or one, so the two orders of summation agree with no condition on the input — and both then apply
  the same layers to that `[16, 192]` matrix of counts and the same parameter vector. The idealization rewrote no
  operation, so the kernel's idealized text is its own.

  The word-level kernel's and the idealized kernel's frames are the generated ones; the reference's frame is its
  generated run with the result dropped.
-/
import proofs.«176124_j50113678410581_1_alg».proof.Defs
import proofs.«176124_j50113678410581_1_alg».proof.Proof.Gen.Kernel
import proofs.«176124_j50113678410581_1_alg».proof.Proof.Gen.Kernel.Skeleton
import proofs.«176124_j50113678410581_1_alg».proof.Proof.Gen.Kernel.Loops
import proofs.«176124_j50113678410581_1_alg».proof.Proof.Gen.Kernel.Launch
import proofs.«176124_j50113678410581_1_alg».proof.Proof.Gen.Kernel.Points
import proofs.«176124_j50113678410581_1_alg».proof.Proof.Gen.Kernel.Frame
import proofs.«176124_j50113678410581_1_alg».proof.Proof.Gen.KernelIdeal
import proofs.«176124_j50113678410581_1_alg».proof.Proof.Gen.KernelIdeal.Skeleton
import proofs.«176124_j50113678410581_1_alg».proof.Proof.Gen.KernelIdeal.Loops
import proofs.«176124_j50113678410581_1_alg».proof.Proof.Gen.KernelIdeal.Launch
import proofs.«176124_j50113678410581_1_alg».proof.Proof.Gen.KernelIdeal.Points
import proofs.«176124_j50113678410581_1_alg».proof.Proof.Gen.KernelIdeal.Frame
import proofs.«176124_j50113678410581_1_alg».proof.Proof.Gen.ReferenceIdeal
import proofs.«176124_j50113678410581_1_alg».proof.Proof.Gen.Pre_finite_inputs
import proofs.«176124_j50113678410581_1_alg».proof.Proof.Gen.ReferenceIdeal.Run
import proofs.«176124_j50113678410581_1_alg».proof.Proof.Gen.ReferenceIdeal.Read
import proofs.«176124_j50113678410581_1_alg».proof.Proof.Spec
import proofs.«176124_j50113678410581_1_alg».proof.Proof.Counting
import proofs.«176124_j50113678410581_1_alg».proof.Proof.RefFeat
import proofs.«176124_j50113678410581_1_alg».proof.Proof.Tail
import proofs.«176124_j50113678410581_1_alg».proof.Proof.KernelRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The reference's result term is the common layers of the specification's feature matrix. -/
theorem ref_result (x0 : (⟨Cert.ReferenceIdeal.S16x3x1024x1024, .f32⟩ : BufTy).Contents (Elt Ideal))
    (x1 : (⟨Cert.ReferenceIdeal.S28864, .f32⟩ : BufTy).Contents (Elt Ideal)) :
    Cert.ReferenceIdeal.Read.val_main_v46 (F := Ideal) x0 x1 = Cert.Hist.mlp (Cert.Hist.feat x0) x1 := by
  rw [Cert.Hist.ref_mlp, Cert.Hist.ref_feat]

/-- Both programs end with the layers of the image's feature matrix and the parameter vector. -/
theorem algebraic : Cert.algebraic_KernelIdeal_ReferenceIdeal := by
  intro m ρ m' ρ' _ hagree
  refine ⟨_, Cert.Hist.kernel_run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v46_eq (F := Ideal) _ _).trans (ref_result _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
